-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x256 : Shape := ⟨2, ![4096, 256]⟩
abbrev S256x256 : Shape := ⟨2, ![256, 256]⟩
abbrev S256 : Shape := ⟨1, ![256]⟩
abbrev S_ : Shape := ⟨0, ![]⟩

class Facts : Prop where
  bcast_S_S4096x256 : S_.BroadcastsInDim S4096x256 (![] : Fin 0 → Fin S4096x256.rank)
  reducesTo_S4096x256_S_d0_1 : S4096x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x256 .f32) (main_arg5 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S4096x256 .f32) (main_arg1 : FVec F S256x256 .f32) (main_arg2 : FVec F S256x256 .f32) (main_arg3 : FVec F S256x256 .f32) (main_arg4 : FVec F S256x256 .f32) (main_arg5 : FVec F S256 .f32) : IVec S_ 1 :=
  let main_v0 : FVec F S4096x256 .f32 := Host.absf main_arg0
  let main_cst : FVec F S_ .f32 := constant S_ .f32 0x7F800000#32
  let main_v1 : FVec F S4096x256 .f32 := broadcastInDim S4096x256 ![] bcast_S_S4096x256 main_cst
  let main_v2 : IVec S4096x256 1 := cmpf .olt main_v0 main_v1
  let main_c : IVec S_ 1 := constantI S_ 1 1#1
  let main_v3 : IVec S_ 1 := (fun x v => Host.reduce IntOp.andi x v reducesTo_S4096x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_v13 main_v16
-- ==== Kernel.lean ====
abbrev S4096x256 : Shape := ⟨2, ![4096, 256]⟩
abbrev S256x256 : Shape := ⟨2, ![256, 256]⟩
abbrev S256 : Shape := ⟨1, ![256]⟩
abbrev S768x256 : Shape := ⟨2, ![768, 256]⟩
abbrev S4096x768 : Shape := ⟨2, ![4096, 768]⟩
abbrev S1024x256 : Shape := ⟨2, ![1024, 256]⟩
abbrev S1024x768 : Shape := ⟨2, ![1024, 768]⟩
abbrev S256x768 : Shape := ⟨2, ![256, 768]⟩
abbrev S4096x8x32 : Shape := ⟨3, ![4096, 8, 32]⟩
abbrev S8x4096x32 : Shape := ⟨3, ![8, 4096, 32]⟩
abbrev S8x256x32 : Shape := ⟨3, ![8, 256, 32]⟩
abbrev S8x256x256 : Shape := ⟨3, ![8, 256, 256]⟩
abbrev S1x256 : Shape := ⟨2, ![1, 256]⟩

abbrev nBuf : Space → Nat
  | .hbm => 22
  | .vmem => 20
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S768x256, .f32⟩
  | .hbm, ⟨7, _⟩ => ⟨S4096x768, .f32⟩
  | .hbm, ⟨8, _⟩ => ⟨S4096x256, .f32⟩
  | .hbm, ⟨9, _⟩ => ⟨S4096x256, .f32⟩
  | .hbm, ⟨10, _⟩ => ⟨S4096x256, .f32⟩
  | .hbm, ⟨11, _⟩ => ⟨S4096x8x32, .f32⟩
  | .hbm, ⟨12, _⟩ => ⟨S8x4096x32, .f32⟩
  | .hbm, ⟨13, _⟩ => ⟨S4096x8x32, .f32⟩
  | .hbm, ⟨14, _⟩ => ⟨S8x4096x32, .f32⟩
  | .hbm, ⟨15, _⟩ => ⟨S4096x8x32, .f32⟩
  | .hbm, ⟨16, _⟩ => ⟨S8x4096x32, .f32⟩
  | .hbm, ⟨17, _⟩ => ⟨S8x4096x32, .f32⟩
  | .hbm, ⟨18, _⟩ => ⟨S4096x8x32, .f32⟩
  | .hbm, ⟨19, _⟩ => ⟨S4096x256, .f32⟩
  | .hbm, ⟨20, _⟩ => ⟨S1x256, .f32⟩
  | .hbm, ⟨21, _⟩ => ⟨S4096x256, .f32⟩
  | .local _ .vmem, ⟨0, _⟩ => ⟨S1024x256, .f32⟩
  | .local _ .vmem, ⟨1, _⟩ => ⟨S1024x256, .f32⟩
  | .local _ .vmem, ⟨2, _⟩ => ⟨S768x256, .f32⟩
  | .local _ .vmem, ⟨3, _⟩ => ⟨S1024x768, .f32⟩
  | .local _ .vmem, ⟨4, _⟩ => ⟨S1024x768, .f32⟩
  | .local _ .vmem, ⟨5, _⟩ => ⟨S8x256x32, .f32⟩
  | .local _ .vmem, ⟨6, _⟩ => ⟨S8x256x32, .f32⟩
  | .local _ .vmem, ⟨7, _⟩ => ⟨S8x256x32, .f32⟩
  | .local _ .vmem, ⟨8, _⟩ => ⟨S8x256x32, .f32⟩
  | .local _ .vmem, ⟨9, _⟩ => ⟨S8x256x32, .f32⟩
  | .local _ .vmem, ⟨10, _⟩ => ⟨S8x256x32, .f32⟩
  | .local _ .vmem, ⟨11, _⟩ => ⟨S8x256x32, .f32⟩
  | .local _ .vmem, ⟨12, _⟩ => ⟨S8x256x32, .f32⟩
  | .local _ .vmem, ⟨13, _⟩ => ⟨S8x256x32, .f32⟩
  | .local _ .vmem, ⟨14, _⟩ => ⟨S1024x256, .f32⟩
  | .local _ .vmem, ⟨15, _⟩ => ⟨S1024x256, .f32⟩
  | .local _ .vmem, ⟨16, _⟩ => ⟨S256x256, .f32⟩
  | .local _ .vmem, ⟨17, _⟩ => ⟨S1x256, .f32⟩
  | .local _ .vmem, ⟨18, _⟩ => ⟨S1024x256, .f32⟩
  | .local _ .vmem, ⟨19, _⟩ => ⟨S1024x256, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg3_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![16, 16], ![false, false]⟩

def k1_cond2 (i : grid1.Coords) : BitVec 1 :=
  let arg1 : BitVec 32 := BitVec.ofNat 32 (i 1).val
  let c15_i32 : BitVec 32 := 15#32
  let v21 : BitVec 1 := Scalar.cmpi .eq arg1 c15_i32
  let v22 : BitVec 32 := Scalar.extui v21
  let c0_i32_16 : BitVec 32 := 0#32
  let v23 : BitVec 1 := Scalar.cmpi .ne v22 c0_i32_16
  v23

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x256x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S8x256x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S8x256x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨1, ![4], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  concatenates_S256x256_S256x256_S256x256_S768x256_d0 : Shape.Concatenates [S256x256, S256x256, S256x256] S768x256 0
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S768x256_S768x256_0_0 : ∀ a, (![0, 0] : Fin 2 → Nat) a + S768x256.size a ≤ S768x256.size a
  h_S768x256 : 0 < S768x256.numel
  shapeCasts_S768x256_S768x256 : S768x256.ShapeCasts S768x256
  transposes_S768x256_p1_0_S256x768 : S768x256.Transposes [1, 0] S256x768
  inb_S1024x768_S1024x768_0_0 : ∀ a, (![0, 0] : Fin 2 → Nat) a + S1024x768.size a ≤ S1024x768.size a
  h_S1024x768 : 0 < S1024x768.numel
  slices_S4096x768_S4096x256_0_0 : S4096x768.Slices ![0, 0] S4096x256
  slices_S4096x768_S4096x256_0_256 : S4096x768.Slices ![0, 256] S4096x256
  slices_S4096x768_S4096x256_0_512 : S4096x768.Slices ![0, 512] S4096x256
  shapeCasts_S4096x256_S4096x8x32 : S4096x256.ShapeCasts S4096x8x32
  transposes_S4096x8x32_S8x4096x32_1_0_2 : S4096x8x32.Transposes [1, 0, 2] S8x4096x32
  inb_S8x256x32_S8x256x32_0_0_0 : ∀ a, (![0, 0, 0] : Fin 3 → Nat) a + S8x256x32.size a ≤ S8x256x32.size a
  h_S8x256x32 : 0 < S8x256x32.numel
  shapeCasts_S8x256x32_S8x256x32 : S8x256x32.ShapeCasts S8x256x32
  transposes_S8x4096x32_S4096x8x32_1_0_2 : S8x4096x32.Transposes [1, 0, 2] S4096x8x32
  shapeCasts_S4096x8x32_S4096x256 : S4096x8x32.ShapeCasts S4096x256
  shapeCasts_S256_S1x256 : S256.ShapeCasts S1x256
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  transposes_S256x256_p1_0_S256x256 : S256x256.Transposes [1, 0] S256x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x256_S256x768_S1024x768_1_0_0_1_n_n_wf : DotDims.WF S1024x256 S256x768 S1024x768 [1] [0] [0] [1] [] []
  dot_S8x256x32_S8x256x32_S8x256x256_2_2_1_1_0_0_wf : DotDims.WF S8x256x32 S8x256x32 S8x256x256 [2] [2] [1] [1] [0] [0]
  dot_S8x256x256_S8x256x32_S8x256x32_2_1_1_2_0_0_wf : DotDims.WF S8x256x256 S8x256x32 S8x256x32 [2] [1] [1] [2] [0] [0]
  dot_S1024x256_S256x256_S1024x256_1_0_0_1_n_n_wf : DotDims.WF S1024x256 S256x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x256.size a
  hwx0_0 : ∀ i : grid0.Coords, EltTy.bits .f32 = 32 ∨ (Rect.block (s := S4096x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x256.size a ≤ S768x256.size a
  hwx0_1 : ∀ i : grid0.Coords, EltTy.bits .f32 = 32 ∨ (Rect.block (s := S768x256) S768x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x768.size a ≤ S4096x768.size a
  hwx0_2 : ∀ i : grid0.Coords, EltTy.bits .f32 = 32 ∨ (Rect.block (s := S4096x768) S1024x768.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x32.size a ≤ S8x4096x32.size a
  hwx1_0 : ∀ i : grid1.Coords, EltTy.bits .f32 = 32 ∨ (Rect.block (s := S8x4096x32) S8x256x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x32.size a ≤ S8x4096x32.size a
  hwx1_1 : ∀ i : grid1.Coords, EltTy.bits .f32 = 32 ∨ (Rect.block (s := S8x4096x32) S8x256x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x32.size a ≤ S8x4096x32.size a
  hwx1_2 : ∀ i : grid1.Coords, EltTy.bits .f32 = 32 ∨ (Rect.block (s := S8x4096x32) S8x256x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x32.size a ≤ S8x4096x32.size a
  hwx1_3 : ∀ i : grid1.Coords, EltTy.bits .f32 = 32 ∨ (Rect.block (s := S8x4096x32) S8x256x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S4096x256.size a
  hwx2_0 : ∀ i : grid2.Coords, EltTy.bits .f32 = 32 ∨ (Rect.block (s := S4096x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x256.size a ≤ S4096x256.size a
  hwx2_3 : ∀ i : grid2.Coords, EltTy.bits .f32 = 32 ∨ (Rect.block (s := S4096x256) S1024x256.size (cc2_transform_3 i) (hinb2_3 i)).WholeWords (EltTy.packing .f32)

variable [Facts₀]

def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf
def dot_S8x256x32_S8x256x32_S8x256x256_2_2_1_1_0_0 : DotDims S8x256x32 S8x256x32 S8x256x256 where
  lhsContracting := [2]
  rhsContracting := [2]
  lhsNonContracting := [1]
  rhsNonContracting := [1]
  lhsBatch := [0]
  rhsBatch := [0]
  wf := dot_S8x256x32_S8x256x32_S8x256x256_2_2_1_1_0_0_wf
def dot_S8x256x256_S8x256x32_S8x256x32_2_1_1_2_0_0 : DotDims S8x256x256 S8x256x32 S8x256x32 where
  lhsContracting := [2]
  rhsContracting := [1]
  lhsNonContracting := [1]
  rhsNonContracting := [2]
  lhsBatch := [0]
  rhsBatch := [0]
  wf := dot_S8x256x256_S8x256x32_S8x256x32_2_1_1_2_0_0_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x768.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v6) S8x256x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v8) S8x256x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8x256x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v11) S8x256x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v13) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v14) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v15) S1024x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4096x256 : Shape := ⟨2, ![4096, 256]⟩
abbrev S256x256 : Shape := ⟨2, ![256, 256]⟩
abbrev S256 : Shape := ⟨1, ![256]⟩
abbrev S4096x8x32 : Shape := ⟨3, ![4096, 8, 32]⟩
abbrev S8x4096x32 : Shape := ⟨3, ![8, 4096, 32]⟩
abbrev S8x4096x4096 : Shape := ⟨3, ![8, 4096, 4096]⟩
abbrev S1x256 : Shape := ⟨2, ![1, 256]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096x256, .f32⟩
  | .hbm, ⟨1, _⟩ => ⟨S256x256, .f32⟩
  | .hbm, ⟨2, _⟩ => ⟨S256x256, .f32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S4096x256, .f32⟩
  | .hbm, ⟨8, _⟩ => ⟨S4096x8x32, .f32⟩
  | .hbm, ⟨9, _⟩ => ⟨S8x4096x32, .f32⟩
  | .hbm, ⟨10, _⟩ => ⟨S256x256, .f32⟩
  | .hbm, ⟨11, _⟩ => ⟨S4096x256, .f32⟩
  | .hbm, ⟨12, _⟩ => ⟨S4096x8x32, .f32⟩
  | .hbm, ⟨13, _⟩ => ⟨S8x4096x32, .f32⟩
  | .hbm, ⟨14, _⟩ => ⟨S256x256, .f32⟩
  | .hbm, ⟨15, _⟩ => ⟨S4096x256, .f32⟩
  | .hbm, ⟨16, _⟩ => ⟨S4096x8x32, .f32⟩
  | .hbm, ⟨17, _⟩ => ⟨S8x4096x32, .f32⟩
  | .hbm, ⟨18, _⟩ => ⟨S8x4096x4096, .f32⟩
  | .hbm, ⟨19, _⟩ => ⟨S8x4096x4096, .f32⟩
  | .hbm, ⟨20, _⟩ => ⟨S8x4096x32, .f32⟩
  | .hbm, ⟨21, _⟩ => ⟨S4096x8x32, .f32⟩
  | .hbm, ⟨22, _⟩ => ⟨S4096x256, .f32⟩
  | .hbm, ⟨23, _⟩ => ⟨S256x256, .f32⟩
  | .hbm, ⟨24, _⟩ => ⟨S4096x256, .f32⟩
  | .hbm, ⟨25, _⟩ => ⟨S1x256, .f32⟩
  | .hbm, ⟨26, _⟩ => ⟨S4096x256, .f32⟩
  | .hbm, ⟨27, _⟩ => ⟨S4096x256, .f32⟩
  | .hbm, ⟨28, _⟩ => ⟨S_, .f32⟩
  | .hbm, ⟨29, _⟩ => ⟨S4096x256, .f32⟩
  | .hbm, ⟨30, _⟩ => ⟨S4096x256, .f32⟩
  | _, _ => ⟨S4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_call0_cst : Ref sig .tc := ⟨.hbm, 28, rfl⟩
abbrev main_call0_v0 : Ref sig .tc := ⟨.hbm, 29, rfl⟩
abbrev main_v22 : Ref sig .tc := ⟨.hbm, 30, rfl⟩

abbrev nD : Nat := 1
abbrev τ : Topo := Topo.v7x

variable {F : FTy → Type} [FloatOps F]

class Facts₀ : Prop where
  transposes_S256x256_S256x256_1_0 : S256x256.Transposes [1, 0] S256x256
  shapeCasts_S4096x256_S4096x8x32 : S4096x256.ShapeCasts S4096x8x32
  transposes_S4096x8x32_S8x4096x32_1_0_2 : S4096x8x32.Transposes [1, 0, 2] S8x4096x32
  transposes_S8x4096x32_S4096x8x32_1_0_2 : S8x4096x32.Transposes [1, 0, 2] S4096x8x32
  shapeCasts_S4096x8x32_S4096x256 : S4096x8x32.ShapeCasts S4096x256
  bcast_S256_S1x256_1 : S256.BroadcastsInDim S1x256 (![1] : Fin 1 → Fin S1x256.rank)
  bcast_S1x256_S4096x256_0_1 : S1x256.BroadcastsInDim S4096x256 (![0, 1] : Fin 2 → Fin S4096x256.rank)
  bcast_S_S4096x256 : S_.BroadcastsInDim S4096x256 (![] : Fin 0 → Fin S4096x256.rank)
  dot_S4096x256_S256x256_S4096x256_1_0_0_1_n_n_wf : DotDims.WF S4096x256 S256x256 S4096x256 [1] [0] [0] [1] [] []
  dot_S8x4096x32_S8x4096x32_S8x4096x4096_2_2_1_1_0_0_wf : DotDims.WF S8x4096x32 S8x4096x32 S8x4096x4096 [2] [2] [1] [1] [0] [0]
  dot_S8x4096x4096_S8x4096x32_S8x4096x32_2_1_1_2_0_0_wf : DotDims.WF S8x4096x4096 S8x4096x32 S8x4096x32 [2] [1] [1] [2] [0] [0]

variable [Facts₀]

def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S8x4096x32_S8x4096x32_S8x4096x4096_2_2_1_1_0_0 : DotDims S8x4096x32 S8x4096x32 S8x4096x4096 where
  lhsContracting := [2]
  rhsContracting := [2]
  lhsNonContracting := [1]
  rhsNonContracting := [1]
  lhsBatch := [0]
  rhsBatch := [0]
  wf := dot_S8x4096x32_S8x4096x32_S8x4096x4096_2_2_1_1_0_0_wf
def dot_S8x4096x4096_S8x4096x32_S8x4096x32_2_1_1_2_0_0 : DotDims S8x4096x4096 S8x4096x32 S8x4096x32 where
  lhsContracting := [2]
  rhsContracting := [1]
  lhsNonContracting := [1]
  rhsNonContracting := [2]
  lhsBatch := [0]
  rhsBatch := [0]
  wf := dot_S8x4096x4096_S8x4096x32_S8x4096x32_2_1_1_2_0_0_wf

class Facts : Prop extends Facts₀ where

variable [Facts]
-- ==== Proof.K.Reg0.lean ====
/- Region 0 of the program (the fused q/k/v projection): the proof data of its pipeline at the contents `V` the
   region is entered from, and the body obligation. A grid point `t` stages rows 1024·t … 1024·t+1023 of the input,
   the whole 768×256 weight, and writes the 1024×768 block of products back. -/
import proofs.«123822_j11501922419472_1_alg».proof.Proof.Gen.Kernel.Launch
import proofs.«123822_j11501922419472_1_alg».proof.Proof.Gen.Kernel.Skeleton
import proofs.«123822_j11501922419472_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1024x256 := Rect.unit (s := S1024x256) ![0, 0] S1024x256.size inb_S1024x256_S1024x256_0_0
abbrev r0_w : Rect S768x256 := Rect.unit (s := S768x256) ![0, 0] S768x256.size inb_S768x256_S768x256_0_0
abbrev r0_o : Rect S1024x768 := Rect.unit (s := S1024x768) ![0, 0] S1024x768.size inb_S1024x768_S1024x768_0_0

/-- The output block after the body: its one whole-block store over the loaded input blocks. -/
def out0_2 (x0 : Vec F S1024x256 .f32) (x1 : Vec F S768x256 .f32) : Vec F S1024x768 .f32 :=
  View.canon [⟨r0_o, k0_pay1 (View.ld x0 r0_x) (View.ld x1 r0_w)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight, fetched at the first point only) likewise: its block index is constant, so
    the buffer still holds the block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one whole-block store tiles the output buffer, so it covers it. -/
theorem cover0_2 (p0 : Vec F S1024x768 .f32) (y : S1024x768.Idx) :
    ∃ pc ∈ ([⟨r0_o, p0⟩] : List (View.Piece (Elt F) S1024x768 .f32)), y ∈ pc.1.set :=
  View.cover_of_tiled [⟨r0_o, p0⟩] S1024x768.size (by rfl) y

set_option maxHeartbeats 1000000 in
/-- The kernel body on whole staging memrefs, the inputs' at read contents `x0`, `x1` and the output's at anything,
    runs to the continuation holding the inputs' as they were and the output's at `out0_2` of the inputs'. The load of
    the output buffer before the store is dead: nothing reads its value. -/
theorem sound_kernel0 (c : Dev nD) (E : Set ℕ) (i : grid0.Coords) (arg1 : Memref sig .tc .vmem S1024x256 .f32) (harg1 : arg1.IsWhole) (arg2 : Memref sig .tc .vmem S768x256 .f32) (harg2 : arg2.IsWhole) (arg3 : Memref sig .tc .vmem S1024x768 .f32) (harg3 : arg3.IsWhole)
    (x0 : Vec F S1024x256 .f32) (x1 : Vec F S768x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K.Reg1.lean ====
/- Region 1 of the program (the tanh attention): the proof data of its pipeline at the contents `V` the region is
   entered from, and the body obligation. The grid is 16 × 16: point `t` is query tile t / 16 against key tile t % 16.
   The body keeps a running sum in a scratch buffer the kernel carries from point to point: cleared at key tile 0,
   the tile's tanh(q·kᵀ)·v added at every key tile, and copied to the output block at key tile 15, the only point
   of a query tile at which the output window is written back. -/
import proofs.«123822_j11501922419472_1_alg».proof.Proof.Gen.Kernel.Launch
import proofs.«123822_j11501922419472_1_alg».proof.Proof.Gen.Kernel.Skeleton
import proofs.«123822_j11501922419472_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator: a whole scoped buffer of the kernel's own, passed beside the windows. -/
abbrev scM1 : Memref sig .tc .vmem S8x256x32 .f32 := Memref.whole cc1_scratch0

/-- THE ACCUMULATION: what the scratch holds after the body at position `n`. At a key tile 0 the sum restarts from
    the cleared buffer; at any other it goes on from what the point before left. -/
def acc1 (c : Dev nD) : (n : ℕ) → n < cfg1.N → Vec F S8x256x32 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 16 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (acc1 c n (Nat.lt_of_succ_lt hn))

/-- At a point of key tile 0 the sum is the tile's term over the cleared buffer. -/
theorem acc1_first (c : Dev nD) (t : Fin cfg1.N) (h : t.val % 16 = 0) :
    acc1 V c t.val t.isLt = k1_pay2 (iblk1 V c 0 t) (iblk1 V c 1 t) (iblk1 V c 2 t) (k1_pay1 (F := F)) := by
  obtain ⟨n, hn⟩ := t
  cases n with
  | zero => exact rfl
  | succ n => exact (if_pos h).trans rfl

/-- At any other point it is the tile's term over what the point before left. -/
theorem acc1_next (c : Dev nD) (t : Fin cfg1.N) (h : t.val % 16 ≠ 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region invariant before position `n`: before the first point what the launch hands over (every scoped buffer
    that is no staging buffer of this pipeline at anything, the scratch among them); afterwards the same with the scratch
    at what the point before left in it; beside it the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (acc1 V c n hn) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

/-! ## The invariant, read -/

/-- What the launch hands the region, buffer by buffer: the scratch, as a memref owned at some contents, among the
    scoped buffers that are no staging buffer of this pipeline; beside them the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (acc1 V c n hn) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (acc1 V c (n - 1) (by omega)) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the scratch's named contents are forgotten. -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨H00, H01, H02, H03, H04, HS, H20, H21, H22, H23, H24, H25⟩, Hg⟩
  isplitr [Hg]
  · isplitl [H00]; · iexact H00
    isplitl [H01]; · iexact H01
    isplitl [H02]; · iexact H02
    isplitl [H03]; · iexact H03
    isplitl [H04]; · iexact H04
    isplitl [HS]; · iexists _; iexact HS
    isplitl [H20]; · iexact H20
    isplitl [H21]; · iexact H21
    isplitl [H22]; · iexact H22
    isplitl [H23]; · iexact H23
    isplitl [H24]; · iexact H24
    iexact H25
  iexact Hg

/-! ## The body's two conditions and the output window's idle points, over the grid -/

/-- The condition of the body's first `if` (the key tile is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `if` (the key tile is the last), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle, -/
theorem idleAt1_3 : ∀ t : Fin cfg1.N, t.val % 16 ≠ 15 → cfg1.idle 3 (grid1.coords t) = true :=
  (by decide +kernel : ∀ t : Fin grid1.N, t.val % 16 ≠ 15 → cfg1.idle 3 (grid1.coords t) = true)
/-- and not written back; -/
theorem noFlush1_3 : ∀ t : Fin cfg1.N, t.val % 16 ≠ 15 → (cfg1.win 3).flush t = false :=
  (by decide +kernel : ∀ t : Fin grid1.N, t.val % 16 ≠ 15 → win1_3.flush t = false)
/-- at the last key tile it is live. -/
theorem liveAt1_3 : ∀ t : Fin cfg1.N, t.val % 16 = 15 → cfg1.idle 3 (grid1.coords t) = false :=
  (by decide +kernel : ∀ t : Fin grid1.N, t.val % 16 = 15 → cfg1.idle 3 (grid1.coords t) = false)

/-! ## The input windows' buffers hold their blocks -/

/-- An input window's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body on any whole memrefs, case by case -/

/-- Contents read back after a list of writes whose LAST is through the whole-shape rectangle at zero offsets: that
    write's payload, whatever came before. -/
theorem read_writes_cons_unit_zero {Val : EltTy → Type} [∀ e, Nonempty (Val e)] {sig' : RefSig} {κ : Kind} {sp : Space}
    {S : Shape} {e : EltTy} (v : View sig' κ sp S e) (f : v.ty.Contents Val) {off : Fin S.rank → ℕ}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz]

set_option maxHeartbeats 1000000 in
/-- The body at a point of key tile 0 (the first `if` taken, the second not), on whole memrefs: the inputs' and the output's
    buffers are handed back as they were, and the scratch, found at anything, is left at the tile's term over the cleared
    buffer. -/
theorem kernelRun1_A (c : Dev nD) (i : grid1.Coords) (arg2 : Memref sig .tc .vmem S8x256x32 .f32) (harg2 : arg2.IsWhole) (arg3 : Memref sig .tc .vmem S8x256x32 .f32) (harg3 : arg3.IsWhole) (arg4 : Memref sig .tc .vmem S8x256x32 .f32) (harg4 : arg4.IsWhole) (arg5 : Memref sig .tc .vmem S8x256x32 .f32) (harg5 : arg5.IsWhole) (arg6 : Memref sig .tc .vmem S8x256x32 .f32) (harg6 : arg6.IsWhole)
    (hc0 : cond1_0 i) (hc1 : ¬cond1_1 i)
    (x0 x1 x2 xi : Vec F S8x256x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 x2 (k1_pay1 (F := F)))) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  have hz : (![0, 0, 0] : Fin S8x256x32.rank → ℕ) = fun _ => 0 := by funext a; fin_cases a <;> rfl
  sl_unfold_words
  rw [read_writes_cons_unit_zero _ _ hz]
  simp only [View.readAt_eq_ld, harg2.read_unread, harg3.read_unread, harg4.read_unread, harg5.read_unread, harg6.read_unread, View.ld_unit_zero (S := S8x256x32) hz, View.readCov_unit_zero (S := S8x256x32) _ hz]

set_option maxHeartbeats 1000000 in
/-- The body at a point of a middle key tile (neither `if` taken), on whole memrefs: the three input buffers at their
    contents and the output buffer at its contents are handed back as they were, and the scratch, found at `xs`, is left
    at the tile's term over `xs`. -/
theorem kernelRun1_B (c : Dev nD) (i : grid1.Coords) (arg2 : Memref sig .tc .vmem S8x256x32 .f32) (harg2 : arg2.IsWhole) (arg3 : Memref sig .tc .vmem S8x256x32 .f32) (harg3 : arg3.IsWhole) (arg4 : Memref sig .tc .vmem S8x256x32 .f32) (harg4 : arg4.IsWhole) (arg5 : Memref sig .tc .vmem S8x256x32 .f32) (harg5 : arg5.IsWhole) (arg6 : Memref sig .tc .vmem S8x256x32 .f32) (harg6 : arg6.IsWhole)
    (hc0 : ¬cond1_0 i) (hc1 : ¬cond1_1 i)
    (x0 x1 x2 xs xi : Vec F S8x256x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 x2 xs)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  have hz : (![0, 0, 0] : Fin S8x256x32.rank → ℕ) = fun _ => 0 := by funext a; fin_cases a <;> rfl
  sl_unfold_words
  rw [read_writes_cons_unit_zero _ _ hz]
  simp only [View.readAt_eq_ld, harg2.read_unread, harg3.read_unread, harg4.read_unread, harg5.read_unread, harg6.read_unread, View.ld_unit_zero (S := S8x256x32) hz, View.readCov_unit_zero (S := S8x256x32) _ hz]

set_option maxHeartbeats 1000000 in
/-- The body at a point of the last key tile (the first `if` not taken, the second taken), on whole memrefs: the inputs'
    buffers are handed back as they were, the scratch, found at `xs`, is left at the tile's term over `xs`, and the output
    buffer, found at anything, is left at that same value. -/
theorem kernelRun1_C (c : Dev nD) (i : grid1.Coords) (arg2 : Memref sig .tc .vmem S8x256x32 .f32) (harg2 : arg2.IsWhole) (arg3 : Memref sig .tc .vmem S8x256x32 .f32) (harg3 : arg3.IsWhole) (arg4 : Memref sig .tc .vmem S8x256x32 .f32) (harg4 : arg4.IsWhole) (arg5 : Memref sig .tc .vmem S8x256x32 .f32) (harg5 : arg5.IsWhole) (arg6 : Memref sig .tc .vmem S8x256x32 .f32) (harg6 : arg6.IsWhole)
    (hc0 : ¬cond1_0 i) (hc1 : cond1_1 i)
    (x0 x1 x2 xs : Vec F S8x256x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay2 x0 x1 x2 xs) ∗ owns (c : Thread nD τ) arg6 fullShare (k1_pay2 x0 x1 x2 xs)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have hz : (![0, 0, 0] : Fin S8x256x32.rank → ℕ) = fun _ => 0 := by funext a; fin_cases a <;> rfl
  isplitl [H3]
  · iexists _; isplitr
    swap; · iexact H3
    ipureintro
    sl_unfold_words
    rw [read_writes_cons_unit_zero _ _ hz]
    simp only [View.readAt_eq_ld, harg2.read_unread, harg3.read_unread, harg4.read_unread, harg5.read_unread, harg6.read_unread, View.ld_unit_zero (S := S8x256x32) hz, View.readCov_unit_zero (S := S8x256x32) _ hz]
  iexists _; isplitr
  swap; · iexact HS
  ipureintro
  sl_unfold_words
  rw [read_writes_cons_unit_zero _ _ hz]
  simp only [View.readAt_eq_ld, harg2.read_unread, harg3.read_unread, harg4.read_unread, harg5.read_unread, harg6.read_unread, View.ld_unit_zero (S := S8x256x32) hz, View.readCov_unit_zero (S := S8x256x32) _ hz]

/-! ## The body obligation, at a generic point -/

/-- Each window's current staging memref at point `t`, spelled as the pipeline passes it, and its wholeness. -/
abbrev ms1_0 (t : Fin cfg1.N) : Memref sig .tc .vmem S8x256x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256x32 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the key tile says which case the point is in. The
    invariant hands the body the scratch at what the point before left (at anything before the first point) with the other
    scoped buffers and the generator register, and takes the scratch back at this point's sum; away from the last key
    tile the output's buffer is handed back untouched, at the last it holds the sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · have h1 : t.val % 16 ≠ 15 := by omega
    rw [Dat.leavesExact_idle (dat1 V c) 3 t (idleAt1_3 t h1) (noFlush1_3 t h1)]
    rw [acc1_first V c t h0]
    by_cases hz : t.val = 0
    · rw [PhiS1_castSucc V c t, PhiS1_zero V c _ _ hz, PhiA1_eq]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_A c (grid1.coords t) _ (hs1_0 t) _ (hs1_1 t) _ (hs1_2 t) _ (hs1_3 t) scM1 (Memref.isWhole_whole _) ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_A c (grid1.coords t) _ (hs1_0 t) _ (hs1_1 t) _ (hs1_2 t) _ (hs1_3 t) scM1 (Memref.isWhole_whole _) ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t h1], after1_3]
      rw [acc1_next V c t h0]
      rw [PhiS1_castSucc V c t, PhiS1_pos V c _ _ hz]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_C c (grid1.coords t) _ (hs1_0 t) _ (hs1_1 t) _ (hs1_2 t) _ (hs1_3 t) scM1 (Memref.isWhole_whole _) (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      rw [acc1_next V c t h0]
      rw [PhiS1_castSucc V c t, PhiS1_pos V c _ _ hz]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_B c (grid1.coords t) _ (hs1_0 t) _ (hs1_1 t) _ (hs1_2 t) _ (hs1_3 t) scM1 (Memref.isWhole_whole _) (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Fr

end
-- ==== Proof.K.Reg2.lean ====
/- Region 2 of the program (the feed-forward layer): the proof data of its pipeline at the contents `V` the region
   is entered from, and the body obligation. A grid point `t` stages rows 1024·t … 1024·t+1023 of the attention
   output, the whole 256×256 weight and the 1×256 bias, and writes the 1024×256 block max(x·Wᵀ + b, 0) back. -/
import proofs.«123822_j11501922419472_1_alg».proof.Proof.Gen.Kernel.Launch
import proofs.«123822_j11501922419472_1_alg».proof.Proof.Gen.Kernel.Skeleton
import proofs.«123822_j11501922419472_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1024x256 := Rect.unit (s := S1024x256) ![0, 0] S1024x256.size inb_S1024x256_S1024x256_0_0
abbrev r2_w : Rect S256x256 := Rect.unit (s := S256x256) ![0, 0] S256x256.size inb_S256x256_S256x256_0_0
abbrev r2_b : Rect S1x256 := Rect.unit (s := S1x256) ![0, 0] S1x256.size inb_S1x256_S1x256_0_0

/-- The output block after the body: its one whole-block store over the loaded input blocks. -/
def out2_3 (x0 : Vec F S1024x256 .f32) (x1 : Vec F S256x256 .f32) (x2 : Vec F S1x256 .f32) : Vec F S1024x256 .f32 :=
  View.canon [⟨r2_x, k2_pay1 (View.ld x0 r2_x) (View.ld x1 r2_w) (View.ld x2 r2_b)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1 (the weight, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same of input window 2 (the bias, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one store of the body is the whole output block, so it covers it. -/
theorem cover2_3 (p0 : Vec F S1024x256 .f32) (y : S1024x256.Idx) :
    ∃ pc ∈ ([⟨r2_x, p0⟩] : List (View.Piece (Elt F) S1024x256 .f32)), y ∈ pc.1.set :=
  View.cover_of_tiled [⟨r2_x, p0⟩] S1024x256.size (by rfl) y

set_option maxHeartbeats 1000000 in
/-- The kernel body on whole staging memrefs, the inputs' at read contents `x0 x1 x2` and the output's at anything, runs
    to the continuation holding the inputs' as they were and the output's at `out2_3` of the inputs'. -/
theorem sound_kernel2 (c : Dev nD) (E : Set ℕ) (i : grid2.Coords) (arg1 : Memref sig .tc .vmem S1024x256 .f32) (harg1 : arg1.IsWhole)
    (arg2 : Memref sig .tc .vmem S256x256 .f32) (harg2 : arg2.IsWhole) (arg3 : Memref sig .tc .vmem S1x256 .f32) (harg3 : arg3.IsWhole)
    (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__ffn_kernel i arg1 harg1 arg2 harg2 arg3 harg3 arg4 harg4) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.K.Run.lean ====
/- The run of the whole program: @main as the list of its segments (a host stretch, region 0, a host stretch,
   region 1, a host stretch, region 2), the buffer contents at every segment boundary as a fold from the launch
   memory, and the launch: every weakly fair execution terminates, and every final state holds EVERY unscoped buffer
   at the last boundary's contents — from which both the frame (the arguments end as launched) and the value of
   the result buffer are read. -/
import proofs.«123822_j11501922419472_1_alg».proof.Proof.K.Reg0
import proofs.«123822_j11501922419472_1_alg».proof.Proof.K.Reg1
import proofs.«123822_j11501922419472_1_alg».proof.Proof.K.Reg2
import proofs.«123822_j11501922419472_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev V0' : (c : Dev nD) → (b : Ref sig .tc) → Buf (Elt F) ((c : Thread nD τ).loc b) := fun c b => W0 m ρ c b

/-- After `hostOps0` (the next region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (the next region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the next region's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c r = W4 m ρ c r :=
  StableHlo.after_of_writes_sub hostOps2 _ hostOps2_writes h

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched -/

theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <| (W3_of m ρ c main_arg0 (by decide)).trans <|
    ((W2_arr m ρ c 0).trans (((dat0 (V1 m ρ) c).arrAt_in 0 rfl _).trans (A_eq0 (V1 m ρ) c 0))).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl
theorem W6_main_arg4 (c : Dev nD) : W6 m ρ c (Proc.devRef .tc main_arg4) = m ((c : Thread nD τ).loc main_arg4) :=
  ((W6_arr m ρ c 1).trans (((dat2 (V5 m ρ) c).arrAt_in 1 rfl _).trans (A_eq2 (V5 m ρ) c 1))).trans <| (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl

/-- The result buffer ends at what region 2's write-backs leave in it. -/
theorem W6_main_v15 (c : Dev nD) : W6 m ρ c (Proc.devRef .tc main_v15) = (dat2 (V5 m ρ) c).arrAt 3 cfg2.N :=
  W6_arr m ρ c 3

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.Kernel.Fr

end
-- ==== Proof.KI.Reg0.lean ====
/- Region 0 of the program (the fused q/k/v projection): the proof data of its pipeline at the contents `V` the
   region is entered from, and the body obligation. A grid point `t` stages rows 1024·t … 1024·t+1023 of the input,
   the whole 768×256 weight, and writes the 1024×768 block of products back. -/
import proofs.«123822_j11501922419472_1_alg».proof.Proof.Gen.KernelIdeal.Launch
import proofs.«123822_j11501922419472_1_alg».proof.Proof.Gen.KernelIdeal.Skeleton
import proofs.«123822_j11501922419472_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_x : Rect S1024x256 := Rect.unit (s := S1024x256) ![0, 0] S1024x256.size inb_S1024x256_S1024x256_0_0
abbrev r0_w : Rect S768x256 := Rect.unit (s := S768x256) ![0, 0] S768x256.size inb_S768x256_S768x256_0_0
abbrev r0_o : Rect S1024x768 := Rect.unit (s := S1024x768) ![0, 0] S1024x768.size inb_S1024x768_S1024x768_0_0

/-- The output block after the body: its one whole-block store over the loaded input blocks. -/
def out0_2 (x0 : Vec F S1024x256 .f32) (x1 : Vec F S768x256 .f32) : Vec F S1024x768 .f32 :=
  View.canon [⟨r0_o, k0_pay1 (View.ld x0 r0_x) (View.ld x1 r0_w)⟩]

/-- The proof data of pipeline 0 on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Input window 0's current staging buffer holds its block at every point, fetched there or not, for any proof
    data whose array is `V`'s and whose body leaves the block in place: unfetched, the block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 (the whole weight, fetched at the first point only) likewise: its block index is constant, so
    the buffer still holds the block at every later point. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The one whole-block store tiles the output buffer, so it covers it. -/
theorem cover0_2 (p0 : Vec F S1024x768 .f32) (y : S1024x768.Idx) :
    ∃ pc ∈ ([⟨r0_o, p0⟩] : List (View.Piece (Elt F) S1024x768 .f32)), y ∈ pc.1.set :=
  View.cover_of_tiled [⟨r0_o, p0⟩] S1024x768.size (by rfl) y

set_option maxHeartbeats 1000000 in
/-- The kernel body on whole staging memrefs, the inputs' at read contents `x0`, `x1` and the output's at anything,
    runs to the continuation holding the inputs' as they were and the output's at `out0_2` of the inputs'. The load of
    the output buffer before the store is dead: nothing reads its value. -/
theorem sound_kernel0 (c : Dev nD) (E : Set ℕ) (i : grid0.Coords) (arg1 : Memref sig .tc .vmem S1024x256 .f32) (harg1 : arg1.IsWhole) (arg2 : Memref sig .tc .vmem S768x256 .f32) (harg2 : arg2.IsWhole) (arg3 : Memref sig .tc .vmem S1024x768 .f32) (harg3 : arg3.IsWhole)
    (x0 : Vec F S1024x256 .f32) (x1 : Vec F S768x256 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__proj_kernel i arg1 harg1 arg2 harg2 arg3 harg3) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's obligations pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ (grid0.coords t) _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI.Reg1.lean ====
/- Region 1 of the program (the tanh attention): the proof data of its pipeline at the contents `V` the region is
   entered from, and the body obligation. The grid is 16 × 16: point `t` is query tile t / 16 against key tile t % 16.
   The body keeps a running sum in a scratch buffer the kernel carries from point to point: cleared at key tile 0,
   the tile's tanh(q·kᵀ)·v added at every key tile, and copied to the output block at key tile 15, the only point
   of a query tile at which the output window is written back. -/
import proofs.«123822_j11501922419472_1_alg».proof.Proof.Gen.KernelIdeal.Launch
import proofs.«123822_j11501922419472_1_alg».proof.Proof.Gen.KernelIdeal.Skeleton
import proofs.«123822_j11501922419472_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The scratch accumulator: a whole scoped buffer of the kernel's own, passed beside the windows. -/
abbrev scM1 : Memref sig .tc .vmem S8x256x32 .f32 := Memref.whole cc1_scratch0

/-- THE ACCUMULATION: what the scratch holds after the body at position `n`. At a key tile 0 the sum restarts from
    the cleared buffer; at any other it goes on from what the point before left. -/
def acc1 (c : Dev nD) : (n : ℕ) → n < cfg1.N → Vec F S8x256x32 .f32
  | 0, hn => k1_pay2 (iblk1 V c 0 ⟨0, hn⟩) (iblk1 V c 1 ⟨0, hn⟩) (iblk1 V c 2 ⟨0, hn⟩) (k1_pay1 (F := F))
  | n + 1, hn =>
    if (n + 1) % 16 = 0 then
      k1_pay2 (iblk1 V c 0 ⟨n + 1, hn⟩) (iblk1 V c 1 ⟨n + 1, hn⟩) (iblk1 V c 2 ⟨n + 1, hn⟩) (k1_pay1 (F := F))
    else
      k1_pay2 (iblk1 V c 0 ⟨n + 1, hn⟩) (iblk1 V c 1 ⟨n + 1, hn⟩) (iblk1 V c 2 ⟨n + 1, hn⟩) (acc1 c n (Nat.lt_of_succ_lt hn))

/-- At a point of key tile 0 the sum is the tile's term over the cleared buffer. -/
theorem acc1_first (c : Dev nD) (t : Fin cfg1.N) (h : t.val % 16 = 0) :
    acc1 V c t.val t.isLt = k1_pay2 (iblk1 V c 0 t) (iblk1 V c 1 t) (iblk1 V c 2 t) (k1_pay1 (F := F)) := by
  obtain ⟨n, hn⟩ := t
  cases n with
  | zero => exact rfl
  | succ n => exact (if_pos h).trans rfl

/-- At any other point it is the tile's term over what the point before left. -/
theorem acc1_next (c : Dev nD) (t : Fin cfg1.N) (h : t.val % 16 ≠ 0) :
    acc1 V c t.val t.isLt = k1_pay2 (iblk1 V c 0 t) (iblk1 V c 1 t) (iblk1 V c 2 t)
      (acc1 V c (t.val - 1) (Nat.lt_of_le_of_lt (Nat.sub_le _ _) t.isLt)) := by
  obtain ⟨n, hn⟩ := t
  cases n with
  | zero => exact absurd (Nat.zero_mod _) h
  | succ n => exact (if_neg h).trans rfl

/-- The region invariant before position `n`: before the first point what the launch hands over (every scoped buffer
    that is no staging buffer of this pipeline at anything, the scratch among them); afterwards the same with the scratch
    at what the point before left in it; beside it the generator register at some state. -/
def PhiS1 (c : Dev nD) : (n : ℕ) → n ≤ cfg1.N → sProp 𝕄
  | 0, _ => Pipeline.ΦA spec1 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (acc1 V c n hn) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r))

/-- The proof data of pipeline 1 on core `c`. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => acc1 V c t.val t.isLt
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = acc1 V c t.val t.isLt := by dsimp only [dat1]

/-! ## The invariant, read -/

/-- What the launch hands the region, buffer by buffer: the scratch, as a memref owned at some contents, among the
    scoped buffers that are no staging buffer of this pipeline; beside them the generator register. -/
theorem PhiA1_eq (c : Dev nD) :
    (Pipeline.ΦA spec1 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ d, owns (c : Thread nD τ) scM1 fullShare d) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  unfold Pipeline.ΦA; rw [scopedRest1_eq]; simp only [scM1, owns_whole]; try rfl

theorem PhiS1_zero (c : Dev nD) (n : ℕ) (h : n ≤ cfg1.N) (hz : n = 0) : PhiS1 V c n h = Pipeline.ΦA spec1 c := by
  subst hz; rfl

/-- After point `n` (before point `n + 1`): the scratch at that point's contents. -/
theorem PhiS1_succ (c : Dev nD) (n : ℕ) (hn : n < cfg1.N) :
    PhiS1 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (acc1 V c n hn) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := rfl

/-- Before a point that is not the first: the scratch at what the point before left. -/
theorem PhiS1_pos (c : Dev nD) (n : ℕ) (h : n ≤ cfg1.N) (hz : n ≠ 0) :
    PhiS1 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ owns (c : Thread nD τ) scM1 fullShare (acc1 V c (n - 1) (by omega)) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f)) ∗ (∃ r, prngReg c r)) := by
  cases n with
  | zero => exact absurd rfl hz
  | succ n => rfl

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the launch hands the region is the invariant before the first point. -/
theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]
  try exact Idealize.SL.BI.Entails.refl _

/-- After the last point the invariant gives the launch's back: the scratch's named contents are forgotten. -/
theorem hout1 (c : Dev nD) : (dat1 V c).Φ (Fin.last cfg1.N) ⊢ (Pipeline.ΦA spec1 c : sProp 𝕄) := by
  have hN : (Fin.last cfg1.N).val ≠ 0 := by rw [Fin.val_last]; have : cfg1.N = 256 := N_1; omega
  rw [show (dat1 V c).Φ (Fin.last cfg1.N) = PhiS1 V c (Fin.last cfg1.N).val (Nat.le_of_lt_succ (Fin.last cfg1.N).isLt) from rfl,
    PhiS1_pos V c _ _ hN, PhiA1_eq]
  iintro ⟨⟨H00, H01, H02, H03, H04, HS, H20, H21, H22, H23, H24, H25⟩, Hg⟩
  isplitr [Hg]
  · isplitl [H00]; · iexact H00
    isplitl [H01]; · iexact H01
    isplitl [H02]; · iexact H02
    isplitl [H03]; · iexact H03
    isplitl [H04]; · iexact H04
    isplitl [HS]; · iexists _; iexact HS
    isplitl [H20]; · iexact H20
    isplitl [H21]; · iexact H21
    isplitl [H22]; · iexact H22
    isplitl [H23]; · iexact H23
    isplitl [H24]; · iexact H24
    iexact H25
  iexact Hg

/-! ## The body's two conditions and the output window's idle points, over the grid -/

/-- The condition of the body's first `if` (the key tile is the first), from the grid coordinates. -/
abbrev cond1_0 (i : grid1.Coords) : Prop := (Scalar.cmpi .ne (Scalar.extui (Scalar.cmpi .eq (BitVec.ofNat 32 (i 1).val) 0#32)) 0#32) = 1#1
/-- It holds at the points ≡ 0 (mod 16). -/
theorem hcond1_0 : ∀ t : Fin cfg1.N, cond1_0 (grid1.coords t) ↔ t.val % 16 = 0 :=
  (by decide +kernel : ∀ t : Fin grid1.N, cond1_0 (grid1.coords t) ↔ t.val % 16 = 0)

/-- The condition of the body's second `if` (the key tile is the last), from the grid coordinates. -/
abbrev cond1_1 (i : grid1.Coords) : Prop := k1_cond2 i = 1#1
/-- It holds at the points ≡ 15 (mod 16). -/
theorem hcond1_1 : ∀ t : Fin cfg1.N, cond1_1 (grid1.coords t) ↔ t.val % 16 = 15 :=
  (by decide +kernel : ∀ t : Fin grid1.N, cond1_1 (grid1.coords t) ↔ t.val % 16 = 15)

/-- The input windows are never idle. -/
theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from the last key tile the output window is idle, -/
theorem idleAt1_3 : ∀ t : Fin cfg1.N, t.val % 16 ≠ 15 → cfg1.idle 3 (grid1.coords t) = true :=
  (by decide +kernel : ∀ t : Fin grid1.N, t.val % 16 ≠ 15 → cfg1.idle 3 (grid1.coords t) = true)
/-- and not written back; -/
theorem noFlush1_3 : ∀ t : Fin cfg1.N, t.val % 16 ≠ 15 → (cfg1.win 3).flush t = false :=
  (by decide +kernel : ∀ t : Fin grid1.N, t.val % 16 ≠ 15 → win1_3.flush t = false)
/-- at the last key tile it is live. -/
theorem liveAt1_3 : ∀ t : Fin cfg1.N, t.val % 16 = 15 → cfg1.idle 3 (grid1.coords t) = false :=
  (by decide +kernel : ∀ t : Fin grid1.N, t.val % 16 = 15 → cfg1.idle 3 (grid1.coords t) = false)

/-! ## The input windows' buffers hold their blocks -/

/-- An input window's current staging buffer holds its block at every point, fetched there or not: unfetched, the block
    index has not moved. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; unfold Dat.blockOf iblk1; rw [A_eq1]; try rfl) t d).trans
    (by unfold Dat.fetched Dat.blockOf iblk1; rw [A_eq1]; try rfl)

/-! ## The body on any whole memrefs, case by case -/

/-- Contents read back after a list of writes whose LAST is through the whole-shape rectangle at zero offsets: that
    write's payload, whatever came before. -/
theorem read_writes_cons_unit_zero {Val : EltTy → Type} [∀ e, Nonempty (Val e)] {sig' : RefSig} {κ : Kind} {sp : Space}
    {S : Shape} {e : EltTy} (v : View sig' κ sp S e) (f : v.ty.Contents Val) {off : Fin S.rank → ℕ}
    (hz : off = fun _ => 0) (inb : ∀ a, off a + S.size a ≤ S.size a) (w : S.Idx → Val e)
    (L : List (View.Piece Val S e)) :
    v.read Val (v.writes Val f ((⟨Rect.unit off S.size inb, w⟩ : View.Piece Val S e) :: L)) = w := by
  rw [View.read_writes_eq_canon v f _ (fun y => ⟨_, List.mem_cons_self, View.mem_set_unit_zero hz inb y⟩),
    View.canon_cons_unit_zero hz]

set_option maxHeartbeats 1000000 in
/-- The body at a point of key tile 0 (the first `if` taken, the second not), on whole memrefs: the inputs' and the output's
    buffers are handed back as they were, and the scratch, found at anything, is left at the tile's term over the cleared
    buffer. -/
theorem kernelRun1_A (c : Dev nD) (i : grid1.Coords) (arg2 : Memref sig .tc .vmem S8x256x32 .f32) (harg2 : arg2.IsWhole) (arg3 : Memref sig .tc .vmem S8x256x32 .f32) (harg3 : arg3.IsWhole) (arg4 : Memref sig .tc .vmem S8x256x32 .f32) (harg4 : arg4.IsWhole) (arg5 : Memref sig .tc .vmem S8x256x32 .f32) (harg5 : arg5.IsWhole) (arg6 : Memref sig .tc .vmem S8x256x32 .f32) (harg6 : arg6.IsWhole)
    (hc0 : cond1_0 i) (hc1 : ¬cond1_1 i)
    (x0 x1 x2 xi : Vec F S8x256x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ (∃ d, owns (c : Thread nD τ) arg6 fullShare d)
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 x2 (k1_pay1 (F := F)))) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%ds, %fs, -, HS⟩, Hk⟩
  obtain rfl := harg2.eq_unread hf0; obtain rfl := harg3.eq_unread hf1; obtain rfl := harg4.eq_unread hf2
  obtain rfl := harg5.eq_unread hf3
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  have hz : (![0, 0, 0] : Fin S8x256x32.rank → ℕ) = fun _ => 0 := by funext a; fin_cases a <;> rfl
  sl_unfold_words
  rw [read_writes_cons_unit_zero _ _ hz]
  simp only [View.readAt_eq_ld, harg2.read_unread, harg3.read_unread, harg4.read_unread, harg5.read_unread, harg6.read_unread, View.ld_unit_zero (S := S8x256x32) hz, View.readCov_unit_zero (S := S8x256x32) _ hz]

set_option maxHeartbeats 1000000 in
/-- The body at a point of a middle key tile (neither `if` taken), on whole memrefs: the three input buffers at their
    contents and the output buffer at its contents are handed back as they were, and the scratch, found at `xs`, is left
    at the tile's term over `xs`. -/
theorem kernelRun1_B (c : Dev nD) (i : grid1.Coords) (arg2 : Memref sig .tc .vmem S8x256x32 .f32) (harg2 : arg2.IsWhole) (arg3 : Memref sig .tc .vmem S8x256x32 .f32) (harg3 : arg3.IsWhole) (arg4 : Memref sig .tc .vmem S8x256x32 .f32) (harg4 : arg4.IsWhole) (arg5 : Memref sig .tc .vmem S8x256x32 .f32) (harg5 : arg5.IsWhole) (arg6 : Memref sig .tc .vmem S8x256x32 .f32) (harg6 : arg6.IsWhole)
    (hc0 : ¬cond1_0 i) (hc1 : ¬cond1_1 i)
    (x0 x1 x2 xs xi : Vec F S8x256x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare xi ∗ owns (c : Thread nD τ) arg6 fullShare (k1_pay2 x0 x1 x2 xs)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%f3, %hf3, H3⟩, ⟨%fs, %hfs, HS⟩, Hk⟩
  obtain rfl := harg2.eq_unread hf0; obtain rfl := harg3.eq_unread hf1; obtain rfl := harg4.eq_unread hf2
  obtain rfl := harg5.eq_unread hf3; obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  iexists _; isplitr
  swap; · iexact HS
  ipureintro
  have hz : (![0, 0, 0] : Fin S8x256x32.rank → ℕ) = fun _ => 0 := by funext a; fin_cases a <;> rfl
  sl_unfold_words
  rw [read_writes_cons_unit_zero _ _ hz]
  simp only [View.readAt_eq_ld, harg2.read_unread, harg3.read_unread, harg4.read_unread, harg5.read_unread, harg6.read_unread, View.ld_unit_zero (S := S8x256x32) hz, View.readCov_unit_zero (S := S8x256x32) _ hz]

set_option maxHeartbeats 1000000 in
/-- The body at a point of the last key tile (the first `if` not taken, the second taken), on whole memrefs: the inputs'
    buffers are handed back as they were, the scratch, found at `xs`, is left at the tile's term over `xs`, and the output
    buffer, found at anything, is left at that same value. -/
theorem kernelRun1_C (c : Dev nD) (i : grid1.Coords) (arg2 : Memref sig .tc .vmem S8x256x32 .f32) (harg2 : arg2.IsWhole) (arg3 : Memref sig .tc .vmem S8x256x32 .f32) (harg3 : arg3.IsWhole) (arg4 : Memref sig .tc .vmem S8x256x32 .f32) (harg4 : arg4.IsWhole) (arg5 : Memref sig .tc .vmem S8x256x32 .f32) (harg5 : arg5.IsWhole) (arg6 : Memref sig .tc .vmem S8x256x32 .f32) (harg6 : arg6.IsWhole)
    (hc0 : ¬cond1_0 i) (hc1 : cond1_1 i)
    (x0 x1 x2 xs : Vec F S8x256x32 .f32) (E : Set ℕ) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
        ∗ (iprop(owns (c : Thread nD τ) arg2 fullShare x0 ∗ owns (c : Thread nD τ) arg3 fullShare x1 ∗ owns (c : Thread nD τ) arg4 fullShare x2 ∗ owns (c : Thread nD τ) arg5 fullShare (k1_pay2 x0 x1 x2 xs) ∗ owns (c : Thread nD τ) arg6 fullShare (k1_pay2 x0 x1 x2 xs)) -∗ K ⟨⟩))
      ⊢ wp frame (wpE (defs₀ (F := F)) Variants.none c none) E (cc1__attn_kernel i arg2 harg2 arg3 harg3 arg4 harg4 arg5 harg5 arg6 harg6) K := by
  simp only [cc1__attn_kernel_eq_skeleton]; unfold cc1__attn_kernel_skel
  unfold owns
  iintro ⟨⟨%f0, %hf0, H0⟩, ⟨%f1, %hf1, H1⟩, ⟨%f2, %hf2, H2⟩, ⟨%d3, %f3, -, H3⟩, ⟨%fs, %hfs, HS⟩, Hk⟩
  obtain rfl := harg2.eq_unread hf0; obtain rfl := harg3.eq_unread hf1; obtain rfl := harg4.eq_unread hf2
  obtain rfl := harg6.eq_unread hfs
  sl_exec (disch := first | exact hc0 | exact hc1)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  have hz : (![0, 0, 0] : Fin S8x256x32.rank → ℕ) = fun _ => 0 := by funext a; fin_cases a <;> rfl
  isplitl [H3]
  · iexists _; isplitr
    swap; · iexact H3
    ipureintro
    sl_unfold_words
    rw [read_writes_cons_unit_zero _ _ hz]
    simp only [View.readAt_eq_ld, harg2.read_unread, harg3.read_unread, harg4.read_unread, harg5.read_unread, harg6.read_unread, View.ld_unit_zero (S := S8x256x32) hz, View.readCov_unit_zero (S := S8x256x32) _ hz]
  iexists _; isplitr
  swap; · iexact HS
  ipureintro
  sl_unfold_words
  rw [read_writes_cons_unit_zero _ _ hz]
  simp only [View.readAt_eq_ld, harg2.read_unread, harg3.read_unread, harg4.read_unread, harg5.read_unread, harg6.read_unread, View.ld_unit_zero (S := S8x256x32) hz, View.readCov_unit_zero (S := S8x256x32) _ hz]

/-! ## The body obligation, at a generic point -/

/-- Each window's current staging memref at point `t`, spelled as the pipeline passes it, and its wholeness. -/
abbrev ms1_0 (t : Fin cfg1.N) : Memref sig .tc .vmem S8x256x32 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x32 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256x32 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256x32 .f32 := win1_3.stage (cfg1.slots t 3)
abbrev hs1_3 (t : Fin cfg1.N) : (ms1_3 t).IsWhole := hstage1_3 ((cfg1.slots t 3).cast nbuf1_3)

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point. The inputs' memrefs hold their blocks; the key tile says which case the point is in. The
    invariant hands the body the scratch at what the point before left (at anything before the first point) with the other
    scoped buffers and the generator register, and takes the scratch back at this point's sum; away from the last key
    tile the output's buffer is handed back untouched, at the last it holds the sum. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hN : t.val < 256 := lt_of_lt_of_eq t.isLt (show cfg1.N = 256 from N_1)
  by_cases h0 : t.val % 16 = 0
  · have h1 : t.val % 16 ≠ 15 := by omega
    rw [Dat.leavesExact_idle (dat1 V c) 3 t (idleAt1_3 t h1) (noFlush1_3 t h1)]
    rw [acc1_first V c t h0]
    by_cases hz : t.val = 0
    · rw [PhiS1_castSucc V c t, PhiS1_zero V c _ _ hz, PhiA1_eq]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_A c (grid1.coords t) _ (hs1_0 t) _ (hs1_1 t) _ (hs1_2 t) _ (hs1_3 t) scM1 (Memref.isWhole_whole _) ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexists _; iexact H3
    · rw [PhiS1_castSucc V c t, PhiS1_pos V c _ _ hz]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_A c (grid1.coords t) _ (hs1_0 t) _ (hs1_1 t) _ (hs1_2 t) _ (hs1_3 t) scM1 (Memref.isWhole_whole _) ((hcond1_0 t).mpr h0) (fun h => h1 ((hcond1_1 t).mp h)) (iblk1 V c 0 t) (iblk1 V c 1 t) (iblk1 V c 2 t) _ Set.univ _)
      isplitl [H0]; · iexact H0
      isplitl [H1]; · iexact H1
      isplitl [H2]; · iexact H2
      isplitl [H3]; · iexact H3
      isplitl [HS]; · iexists _; iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexists _; iexact H3
  · have hz : t.val ≠ 0 := fun e => h0 (by rw [e])
    by_cases h1 : t.val % 16 = 15
    · rw [show (dat1 V c).leavesExact 3 t = owns (c : Thread nD τ) (ms1_3 t) fullShare ((dat1 V c).after 3 t) from by
        unfold Dat.leavesExact; rw [liveAt1_3 t h1], after1_3]
      rw [acc1_next V c t h0]
      rw [PhiS1_castSucc V c t, PhiS1_pos V c _ _ hz]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_C c (grid1.coords t) _ (hs1_0 t) _ (hs1_1 t) _ (hs1_2 t) _ (hs1_3 t) scM1 (Memref.isWhole_whole _) (fun h => h0 ((hcond1_0 t).mp h)) ((hcond1_1 t).mpr h1) (iblk1 V c 0 t) (iblk1 V c 1 t) (iblk1 V c 2 t) _ Set.univ _)
      isplitl [H0]; · iexact H0
      isplitl [H1]; · iexact H1
      isplitl [H2]; · iexact H2
      isplitl [H3]; · iexists _; iexact H3
      isplitl [HS]; · iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexact H3
    · rw [Dat.leavesExact_idle (dat1 V c) 3 t (idleAt1_3 t h1) (noFlush1_3 t h1)]
      rw [acc1_next V c t h0]
      rw [PhiS1_castSucc V c t, PhiS1_pos V c _ _ hz]
      iintro ⟨⟨⟨H00, H01, H02, H03, H04, HS, H20, H21, H22, H23, H24, H25⟩, Hg⟩, Ho, ⟨%d0, H0⟩, ⟨%d1, H1⟩, ⟨%d2, H2⟩, ⟨%d3, H3⟩⟩
      iapply (kernelRun1_B c (grid1.coords t) _ (hs1_0 t) _ (hs1_1 t) _ (hs1_2 t) _ (hs1_3 t) scM1 (Memref.isWhole_whole _) (fun h => h0 ((hcond1_0 t).mp h)) (fun h => h1 ((hcond1_1 t).mp h)) (iblk1 V c 0 t) (iblk1 V c 1 t) (iblk1 V c 2 t) _ _ Set.univ _)
      isplitl [H0]; · iexact H0
      isplitl [H1]; · iexact H1
      isplitl [H2]; · iexact H2
      isplitl [H3]; · iexact H3
      isplitl [HS]; · iexact HS
      iintro ⟨H0, H1, H2, H3, HS⟩
      isplitl [H00 H01 H02 H03 H04 HS H20 H21 H22 H23 H24 H25 Hg]
      · isplitr [Hg]
        · isplitl [H00]; · iexact H00
          isplitl [H01]; · iexact H01
          isplitl [H02]; · iexact H02
          isplitl [H03]; · iexact H03
          isplitl [H04]; · iexact H04
          isplitl [HS]; · iexact HS
          isplitl [H20]; · iexact H20
          isplitl [H21]; · iexact H21
          isplitl [H22]; · iexact H22
          isplitl [H23]; · iexact H23
          isplitl [H24]; · iexact H24
          iexact H25
        iexact Hg
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Fr

end
-- ==== Proof.KI.Reg2.lean ====
/- Region 2 of the program (the feed-forward layer): the proof data of its pipeline at the contents `V` the region
   is entered from, and the body obligation. A grid point `t` stages rows 1024·t … 1024·t+1023 of the attention
   output, the whole 256×256 weight and the 1×256 bias, and writes the 1024×256 block max(x·Wᵀ + b, 0) back. -/
import proofs.«123822_j11501922419472_1_alg».proof.Proof.Gen.KernelIdeal.Launch
import proofs.«123822_j11501922419472_1_alg».proof.Proof.Gen.KernelIdeal.Skeleton
import proofs.«123822_j11501922419472_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_x : Rect S1024x256 := Rect.unit (s := S1024x256) ![0, 0] S1024x256.size inb_S1024x256_S1024x256_0_0
abbrev r2_w : Rect S256x256 := Rect.unit (s := S256x256) ![0, 0] S256x256.size inb_S256x256_S256x256_0_0
abbrev r2_b : Rect S1x256 := Rect.unit (s := S1x256) ![0, 0] S1x256.size inb_S1x256_S1x256_0_0

/-- The output block after the body: its one whole-block store over the loaded input blocks. -/
def out2_3 (x0 : Vec F S1024x256 .f32) (x1 : Vec F S256x256 .f32) (x2 : Vec F S1x256 .f32) : Vec F S1024x256 .f32 :=
  View.canon [⟨r2_x, k2_pay1 (View.ld x0 r2_x) (View.ld x1 r2_w) (View.ld x2 r2_b)⟩]

/-- The proof data of pipeline 2 on core `c`. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

/-- Input window 0's current staging buffer holds its block at every point, fetched there or not, for any proof
    data whose array is `V`'s and whose body leaves the block in place: unfetched, the block index has not moved. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)
/-- The same of input window 1 (the weight, fetched at the first point only). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)
/-- The same of input window 2 (the bias, fetched at the first point only). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- The one store of the body is the whole output block, so it covers it. -/
theorem cover2_3 (p0 : Vec F S1024x256 .f32) (y : S1024x256.Idx) :
    ∃ pc ∈ ([⟨r2_x, p0⟩] : List (View.Piece (Elt F) S1024x256 .f32)), y ∈ pc.1.set :=
  View.cover_of_tiled [⟨r2_x, p0⟩] S1024x256.size (by rfl) y

set_option maxHeartbeats 1000000 in
/-- The kernel body on whole staging memrefs, the inputs' at read contents `x0 x1 x2` and the output's at anything, runs
    to the continuation holding the inputs' as they were and the output's at `out2_3` of the inputs'. -/
theorem sound_kernel2 (c : Dev nD) (E : Set ℕ) (i : grid2.Coords) (arg1 : Memref sig .tc .vmem S1024x256 .f32) (harg1 : arg1.IsWhole)
    (arg2 : Memref sig .tc .vmem S256x256 .f32) (harg2 : arg2.IsWhole) (arg3 : Memref sig .tc .vmem S1x256 .f32) (harg3 : arg3.IsWhole)
    (arg4 : Memref sig .tc .vmem S1024x256 .f32) (harg4 : arg4.IsWhole)
    (x0 : Vec F S1024x256 .f32) (x1 : Vec F S256x256 .f32) (x2 : Vec F S1x256 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out2_3 x0 x1 x2)) -∗ K ⟨⟩))
      ⊢ wp frame (wpE (defs₀ (F := F)) Variants.none c none) E (cc2__ffn_kernel i arg1 harg1 arg2 harg2 arg3 harg3 arg4 harg4) K := by
  simp only [cc2__ffn_kernel_eq_skeleton]; unfold cc2__ffn_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

/-- What the body is called with at point `t` (the obligation's precondition, the windows one by one), -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

/-- The body at any point: the inputs' memrefs hold their blocks, so the kernel's triple applies; the invariant and
    the core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.KI.Run.lean ====
/- The run of the whole program: @main as the list of its segments (a host stretch, region 0, a host stretch,
   region 1, a host stretch, region 2), the buffer contents at every segment boundary as a fold from the launch
   memory, and the launch: every weakly fair execution terminates, and every final state holds EVERY unscoped buffer
   at the last boundary's contents — from which both the frame (the arguments end as launched) and the value of
   the result buffer are read. -/
import proofs.«123822_j11501922419472_1_alg».proof.Proof.KI.Reg0
import proofs.«123822_j11501922419472_1_alg».proof.Proof.KI.Reg1
import proofs.«123822_j11501922419472_1_alg».proof.Proof.KI.Reg2
import proofs.«123822_j11501922419472_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each segment boundary -/

/-- Core `c`'s buffers at launch. -/
abbrev W0 : Dev nD → Valuation τ sig (Elt F) := fun c b => (s₀ m ρ).mem ((c : Dev nD), b)
abbrev V0' : (c : Dev nD) → (b : Ref sig .tc) → Buf (Elt F) ((c : Thread nD τ).loc b) := fun c b => W0 m ρ c b

/-- After `hostOps0` (the next region's entry). -/
abbrev W1 : Dev nD → Valuation τ sig (Elt F) := fun c => StableHlo.after hostOps0 (W0 m ρ c)
/-- The same read at the TensorCore's references. -/
abbrev V1 : (c : Dev nD) → (b : Ref sig .tc) → Buf (Elt F) ((c : Thread nD τ).loc b) := fun c b => W1 m ρ c b
theorem W1_of (c : Dev nD) (r : Ref sig .tc) (h : r ∉ hostOps0_W) : W1 m ρ c r = W0 m ρ c r :=
  StableHlo.after_of_writes_sub hostOps0 _ hostOps0_writes h

/-- At region 0's exit: its arrays at what the pipeline leaves (the inputs as entered, each output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the TensorCore's references (region 0's exit contents). -/
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After `hostOps1` (the next region's entry). -/
abbrev W3 : Dev nD → Valuation τ sig (Elt F) := fun c => StableHlo.after hostOps1 (W2 m ρ c)
/-- The same read at the TensorCore's references. -/
abbrev V3 : (c : Dev nD) → (b : Ref sig .tc) → Buf (Elt F) ((c : Thread nD τ).loc b) := fun c b => W3 m ρ c b
theorem W3_of (c : Dev nD) (r : Ref sig .tc) (h : r ∉ hostOps1_W) : W3 m ρ c r = W2 m ρ c r :=
  StableHlo.after_of_writes_sub hostOps1 _ hostOps1_writes h

/-- At region 1's exit: its arrays at what the pipeline leaves (the inputs as entered, each output's write-backs
    folded), every other buffer as entered. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
/-- The same read at the TensorCore's references (region 1's exit contents). -/
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- After `hostOps2` (the next region's entry). -/
abbrev W5 : Dev nD → Valuation τ sig (Elt F) := fun c => StableHlo.after hostOps2 (W4 m ρ c)
/-- The same read at the TensorCore's references. -/
abbrev V5 : (c : Dev nD) → (b : Ref sig .tc) → Buf (Elt F) ((c : Thread nD τ).loc b) := fun c b => W5 m ρ c b
theorem W5_of (c : Dev nD) (r : Ref sig .tc) (h : r ∉ hostOps2_W) : W5 m ρ c r = W4 m ρ c r :=
  StableHlo.after_of_writes_sub hostOps2 _ hostOps2_writes h

/-- At region 2's exit: its arrays at what the pipeline leaves (the inputs as entered, each output's write-backs
    folded), every other buffer as entered. -/
def W6 (c : Dev nD) : Valuation τ sig (Elt F) :=
  Pipeline.withArrays spec2 c (W5 m ρ c) fun w => (dat2 (V5 m ρ) c).arrAt w cfg2.N
theorem W6_arr (c : Dev nD) (w : Fin cfg2.W) :
    W6 m ρ c (Proc.devRef .tc (Pipeline.arrRef spec2 w)) = (dat2 (V5 m ρ) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m ρ c (Proc.devRef .tc b) = W5 m ρ c (Proc.devRef .tc b) := by
  unfold W6; exact Pipeline.withArrays_of_ne spec2 c _ _ b hb
/-- The same read at the TensorCore's references (region 2's exit contents). -/
abbrev V6 : (c : Dev nD) → (b : Ref sig .tc) → Buf (Elt F) ((c : Thread nD τ).loc b) := fun c b => W6 m ρ c b
theorem hF2 (c : Dev nD) (w : Fin cfg2.W) : (dat2 (V5 m ρ) c).arrAt w cfg2.N = V6 m ρ c (Pipeline.arrRef spec2 w) :=
  (W6_arr m ρ c w).symm
theorem hrest2 (c : Dev nD) : ∀ b, b ∉ Finset.univ.image (Pipeline.arrRef spec2) → V6 m ρ c b = V5 m ρ c b :=
  fun b hb => W6_of_ne m ρ c b fun w e => hb (Finset.mem_image.mpr ⟨w, Finset.mem_univ _, e⟩)

/-! ### The arguments end as launched -/

theorem W6_main_arg0 (c : Dev nD) : W6 m ρ c (Proc.devRef .tc main_arg0) = m ((c : Thread nD τ).loc main_arg0) :=
  (W6_of_ne m ρ c main_arg0 (by decide)).trans <| (W5_of m ρ c main_arg0 (by decide)).trans <| (W4_of_ne m ρ c main_arg0 (by decide)).trans <| (W3_of m ρ c main_arg0 (by decide)).trans <|
    ((W2_arr m ρ c 0).trans (((dat0 (V1 m ρ) c).arrAt_in 0 rfl _).trans (A_eq0 (V1 m ρ) c 0))).trans <| (W1_of m ρ c main_arg0 (by decide)).trans rfl
theorem W6_main_arg1 (c : Dev nD) : W6 m ρ c (Proc.devRef .tc main_arg1) = m ((c : Thread nD τ).loc main_arg1) :=
  (W6_of_ne m ρ c main_arg1 (by decide)).trans <| (W5_of m ρ c main_arg1 (by decide)).trans <| (W4_of_ne m ρ c main_arg1 (by decide)).trans <| (W3_of m ρ c main_arg1 (by decide)).trans <|
    (W2_of_ne m ρ c main_arg1 (by decide)).trans <| (W1_of m ρ c main_arg1 (by decide)).trans rfl
theorem W6_main_arg2 (c : Dev nD) : W6 m ρ c (Proc.devRef .tc main_arg2) = m ((c : Thread nD τ).loc main_arg2) :=
  (W6_of_ne m ρ c main_arg2 (by decide)).trans <| (W5_of m ρ c main_arg2 (by decide)).trans <| (W4_of_ne m ρ c main_arg2 (by decide)).trans <| (W3_of m ρ c main_arg2 (by decide)).trans <|
    (W2_of_ne m ρ c main_arg2 (by decide)).trans <| (W1_of m ρ c main_arg2 (by decide)).trans rfl
theorem W6_main_arg3 (c : Dev nD) : W6 m ρ c (Proc.devRef .tc main_arg3) = m ((c : Thread nD τ).loc main_arg3) :=
  (W6_of_ne m ρ c main_arg3 (by decide)).trans <| (W5_of m ρ c main_arg3 (by decide)).trans <| (W4_of_ne m ρ c main_arg3 (by decide)).trans <| (W3_of m ρ c main_arg3 (by decide)).trans <|
    (W2_of_ne m ρ c main_arg3 (by decide)).trans <| (W1_of m ρ c main_arg3 (by decide)).trans rfl
theorem W6_main_arg4 (c : Dev nD) : W6 m ρ c (Proc.devRef .tc main_arg4) = m ((c : Thread nD τ).loc main_arg4) :=
  ((W6_arr m ρ c 1).trans (((dat2 (V5 m ρ) c).arrAt_in 1 rfl _).trans (A_eq2 (V5 m ρ) c 1))).trans <| (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl
theorem W6_main_arg5 (c : Dev nD) : W6 m ρ c (Proc.devRef .tc main_arg5) = m ((c : Thread nD τ).loc main_arg5) :=
  (W6_of_ne m ρ c main_arg5 (by decide)).trans <| (W5_of m ρ c main_arg5 (by decide)).trans <| (W4_of_ne m ρ c main_arg5 (by decide)).trans <| (W3_of m ρ c main_arg5 (by decide)).trans <|
    (W2_of_ne m ρ c main_arg5 (by decide)).trans <| (W1_of m ρ c main_arg5 (by decide)).trans rfl

/-- The result buffer ends at what region 2's write-backs leave in it. -/
theorem W6_main_v15 (c : Dev nD) : W6 m ρ c (Proc.devRef .tc main_v15) = (dat2 (V5 m ρ) c).arrAt 3 cfg2.N :=
  W6_arr m ρ c 3

/-! ## The proof data family and the thread state -/

abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core's dues, at nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the generator register at some state. -/
abbrev Tₙ (c : Dev nD) : sProp 𝕄 := iprop(StableHlo.held (c : Thread nD τ) (Pipeline.ucRefs τ sig) (W6 m ρ c) ∗ ∃ r, prngReg c r)

/-! ## The regions as segments -/

set_option backward.isDefEq.respectTransparency.types false in
/-- Region 0 over the thread state: entered from every unscoped buffer at `W1`, left at `W2`. Its arrays are
    split out of the unscoped buffers and put back at the exit contents; the generator register goes into the
    invariant and comes out; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W3`, left at `W4`. Its arrays are
    split out of the unscoped buffers and put back at the exit contents; the generator register goes into the
    invariant and comes out; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h : (Pipeline.ΦA spec1 c : sProp 𝕄)
        ⊢ iprop((∃ r, prngReg c r) ∗ emp ∗ Pipeline.scopedRest (Pipeline.pin (pcfgs (F := F)) adm 1).spec c) := by
      unfold Pipeline.ΦA
      iintro ⟨Hr, Hp⟩
      isplitl [Hp]; · iexact Hp
      isplitr; · iempintro
      iexact Hr
    exact (hout1 (V3 m ρ) c).trans h
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W5`, left at `W6`. Its arrays are
    split out of the unscoped buffers and put back at the exit contents; the generator register goes into the
    invariant and comes out; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V5 m ρ) c).loose
  hwaits := Pipeline.hwaits_of_owed_zero _ _ _ _ L lv 2 fun _ _ => rfl
  pre c := iprop(StableHlo.held (c : Thread nD τ) (Pipeline.ucRefs τ sig) (W5 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V5 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V5 m ρ c) (V6 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ),
    .host (hseg hostOps2 hostOps2_sub hostOps2_fresh (W4 m ρ)),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer of every core at the last boundary's contents `W6`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W6 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c => h c)

/-- THE FRAME, at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Fr

end
-- ==== Proof.Val.Spec.lean ====
/- The mathematics both programs compute, index by index over the extended reals. With x the 4096×256 input,
   q = x·Wqᵀ, k = x·Wkᵀ, v = x·Wvᵀ are split into 8 heads of width 32; per head h and row n the attention output is
   Σ_m tanh(Σ_d q[h,n,d]·k[h,m,d]) · v[h,m,d] over all 4096 rows m (no normaliser); the heads are merged back and the
   result is max(att·Wfᵀ + b, 0). The kernel computes the three projections as one product against the stacked
   weight and the sum over m tile by tile (16 tiles of 256 rows); addition of extended reals is commutative and
   associative, so the tiled sum is the whole sum (`sum_tiles`). -/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev T1 (a : Nat) : Type := (⟨1, ![a]⟩ : Shape).Idx → EReal
abbrev T2 (a b : Nat) : Type := (⟨2, ![a, b]⟩ : Shape).Idx → EReal
abbrev T3 (a b c : Nat) : Type := (⟨3, ![a, b, c]⟩ : Shape).Idx → EReal

/-- x·wᵀ for one 256×256 weight: entry (n, j) is Σ_k x[n,k]·w[j,k]. -/
def proj (x : T2 4096 256) (w : T2 256 256) : T2 4096 256 :=
  fun i => ∑ k : Fin 256, x (ix2 (n0 := 4096) (n1 := 256) (i 0) k) * w (ix2 (n0 := 256) (n1 := 256) (i 1) k)

/-- The same against the three weights stacked into one 768×256 matrix. -/
def projCat (x : T2 4096 256) (w : T2 768 256) : T2 4096 768 :=
  fun i => ∑ k : Fin 256, x (ix2 (n0 := 4096) (n1 := 256) (i 0) k) * w (ix2 (n0 := 768) (n1 := 256) (i 1) k)

/-- Column h·32 + d of a 4096×256 matrix becomes entry (h, n, d). -/
def splitHeads (y : T2 4096 256) : T3 8 4096 32 :=
  fun i => y (ix2 (n0 := 4096) (n1 := 256) (i 1) ⟨(i 0).val * 32 + (i 2).val, by
    have h0 : (i 0).val < 8 := (i 0).isLt; have h2 : (i 2).val < 32 := (i 2).isLt; omega⟩)

/-- The inverse arrangement: entry (n, c) is entry (c / 32, n, c % 32). -/
def mergeHeads (z : T3 8 4096 32) : T2 4096 256 :=
  fun i => z (ix3 (n0 := 8) (n1 := 4096) (n2 := 32) ⟨(i 1).val / 32, by have h1 : (i 1).val < 256 := (i 1).isLt; omega⟩ (i 0)
    ⟨(i 1).val % 32, Nat.mod_lt _ (by decide)⟩)

/-- The tanh-gated attention of one head and row: Σ_m tanh(q[h,n,·]·k[h,m,·]) · v[h,m,d]. -/
def attn (q k v : T3 8 4096 32) : T3 8 4096 32 :=
  fun i => ∑ m : Fin 4096, Ideal.tanh (∑ d : Fin 32, q (ix3 (n0 := 8) (n1 := 4096) (n2 := 32) (i 0) (i 1) d) * k (ix3 (n0 := 8) (n1 := 4096) (n2 := 32) (i 0) m d))
    * v (ix3 (n0 := 8) (n1 := 4096) (n2 := 32) (i 0) m (i 2))

/-- The feed-forward layer with the bias as a vector: max(a·wᵀ + b, 0). -/
def ffn (a : T2 4096 256) (w : T2 256 256) (b : T1 256) : T2 4096 256 :=
  fun i => max ((∑ k : Fin 256, a (ix2 (n0 := 4096) (n1 := 256) (i 0) k) * w (ix2 (n0 := 256) (n1 := 256) (i 1) k)) + b (ix1 (n := 256) (i 1))) 0

/-- The same with the bias as a 1×256 row. -/
def ffnRow (a : T2 4096 256) (w : T2 256 256) (b : T2 1 256) : T2 4096 256 :=
  fun i => max ((∑ k : Fin 256, a (ix2 (n0 := 4096) (n1 := 256) (i 0) k) * w (ix2 (n0 := 256) (n1 := 256) (i 1) k)) + b (ix2 (n0 := 1) (n1 := 256) 0 (i 1))) 0

/-- The three weights stacked by rows: rows 0–255 are wq's, 256–511 wk's, 512–767 wv's. -/
def catW (wq wk wv : T2 256 256) : T2 768 256 :=
  fun i => if h0 : (i 0).val < 256 then wq (ix2 (n0 := 256) (n1 := 256) ⟨(i 0).val, h0⟩ (i 1))
    else if h1 : (i 0).val < 512 then wk (ix2 (n0 := 256) (n1 := 256) ⟨(i 0).val - 256, by omega⟩ (i 1))
    else wv (ix2 (n0 := 256) (n1 := 256) ⟨(i 0).val - 512, by have h : (i 0).val < 768 := (i 0).isLt; omega⟩ (i 1))

/-- Columns o … o + 255 of a 4096×768 matrix (o = 0, 256 or 512). -/
def sliceCols (o : Nat) (ho : o + 256 ≤ 768) (y : T2 4096 768) : T2 4096 256 :=
  fun i => y (ix2 (n0 := 4096) (n1 := 768) (i 0) ⟨o + (i 1).val, by have h : (i 1).val < 256 := (i 1).isLt; omega⟩)

/-- A vector of 256 entries as a 1×256 row. -/
def rowOf (b : T1 256) : T2 1 256 := fun i => b (ix1 (n := 256) (i 1))

/-- The whole layer. -/
def layer (x : T2 4096 256) (wq wk wv wf : T2 256 256) (b : T1 256) : T2 4096 256 :=
  ffn (mergeHeads (attn (splitHeads (proj x wq)) (splitHeads (proj x wk)) (splitHeads (proj x wv)))) wf b

/-- A sum over 4096 rows taken tile by tile (16 tiles of 256 rows) is the whole sum. -/
theorem sum_tiles (f : Fin 4096 → EReal) :
    ∑ kt : Fin 16, ∑ j : Fin 256, f ⟨kt.val * 256 + j.val, by have := kt.isLt; have := j.isLt; omega⟩ = ∑ m : Fin 4096, f m := by
  rw [← Fintype.sum_prod_type']
  refine Fintype.sum_equiv (finProdFinEquiv (m := 16) (n := 256)) _ _ fun p => ?_
  refine congrArg f (Fin.ext ?_)
  show p.1.val * 256 + p.2.val = p.2.val + 256 * p.1.val
  omega

end Cert.Spec

end
-- ==== Proof.Val.K0.lean ====
/- The value of region 0: after its four grid points the 4096×768 result array holds the product of the input with
   the stacked weight; and a 256-column slice of that product is the product with one of the three weights. -/
import proofs.«123822_j11501922419472_1_alg».proof.Proof.KI.Reg0
import proofs.«123822_j11501922419472_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

variable (V : (c : Dev nD) → (b : Ref sig .tc) → Buf (Elt Ideal) ((c : Thread nD τ).loc b))

/-! ## The body's product at an index -/

/-- The operand indices of the 1024×256 by 256×768 product at output index `i` and contraction index `q`, axis by
    axis: the left operand is read at (row of `i`, `q`), the right one at (`q`, column of `i`). -/
theorem lhs0_0 (i : S1024x768.Idx) (q : dot_S1024x256_S256x768_S1024x768_1_0_0_1_n_n.contr.Idx) :
    (dot_S1024x256_S256x768_S1024x768_1_0_0_1_n_n.lhsIdx i q 0).val = (i 0).val := by
  unfold DotDims.lhsIdx
  rw [dif_neg (show ¬(0 : Fin S1024x256.rank) ∈ dot_S1024x256_S256x768_S1024x768_1_0_0_1_n_n.lhsBatch by decide), dif_pos (show (0 : Fin S1024x256.rank) ∈ dot_S1024x256_S256x768_S1024x768_1_0_0_1_n_n.lhsNonContracting by decide)]
  rfl
theorem lhs0_1 (i : S1024x768.Idx) (q : dot_S1024x256_S256x768_S1024x768_1_0_0_1_n_n.contr.Idx) :
    (dot_S1024x256_S256x768_S1024x768_1_0_0_1_n_n.lhsIdx i q 1).val = (q ⟨0, by decide⟩).val :=
  dot_S1024x256_S256x768_S1024x768_1_0_0_1_n_n.lhsIdx_val_of_single rfl i q
theorem rhs0_0 (i : S1024x768.Idx) (q : dot_S1024x256_S256x768_S1024x768_1_0_0_1_n_n.contr.Idx) :
    (dot_S1024x256_S256x768_S1024x768_1_0_0_1_n_n.rhsIdx i q 0).val = (q ⟨0, by decide⟩).val :=
  dot_S1024x256_S256x768_S1024x768_1_0_0_1_n_n.rhsIdx_val_of_single rfl i q
theorem rhs0_1 (i : S1024x768.Idx) (q : dot_S1024x256_S256x768_S1024x768_1_0_0_1_n_n.contr.Idx) :
    (dot_S1024x256_S256x768_S1024x768_1_0_0_1_n_n.rhsIdx i q 1).val = (i 1).val := by
  unfold DotDims.rhsIdx
  rw [dif_neg (show ¬(1 : Fin S256x768.rank) ∈ dot_S1024x256_S256x768_S1024x768_1_0_0_1_n_n.rhsBatch by decide), dif_pos (show (1 : Fin S256x768.rank) ∈ dot_S1024x256_S256x768_S1024x768_1_0_0_1_n_n.rhsNonContracting by decide)]
  rfl

/-- The transposed weight read at (k, n) is the weight at (n, k). -/
theorem transpose0_apply (y : FVec Ideal S768x256 .bf16) (j : S256x768.Idx) (n : Fin 768) (k : Fin 256)
    (h0 : (j 0).val = k.val) (h1 : (j 1).val = n.val) :
    transpose S256x768 [1, 0] y transposes_S768x256_p1_0_S256x768 j = y (ix2 (n0 := 768) (n1 := 256) n k) :=
  transpose_apply [1, 0] y transposes_S768x256_p1_0_S256x768 j (ix2 (n0 := 768) (n1 := 256) n k) (fun b => by
    match b with
    | ⟨0, _⟩ => exact h0.symm
    | ⟨1, _⟩ => exact h1.symm)

/-- The body's value at entry (p, n) of the block is Σ_k x0[p,k]·x1[n,k]: the roundings are the identity over the
    extended reals, the shape cast is to the same shape, and the product accumulates into zero. -/
theorem pay0_apply (x0 : Vec Ideal S1024x256 .f32) (x1 : Vec Ideal S768x256 .f32) (j : S1024x768.Idx) :
    k0_pay1 x0 x1 j = ∑ k : Fin 256, x0 (ix2 (n0 := 1024) (n1 := 256) (j 0) k) * x1 (ix2 (n0 := 768) (n1 := 256) (j 1) k) := by
  unfold k0_pay1
  refine (Ideal.matmul_constant_zero_apply dot_S1024x256_S256x768_S1024x768_1_0_0_1_n_n none _ _ j).trans ?_
  rw [← Equiv.sum_comp (contrEquiv1 dot_S1024x256_S256x768_S1024x768_1_0_0_1_n_n 256 rfl rfl).symm]
  refine Finset.sum_congr rfl fun k _ => ?_
  have hk := contrEquiv1_symm_val dot_S1024x256_S256x768_S1024x768_1_0_0_1_n_n 256 rfl rfl k
  have el : dot_S1024x256_S256x768_S1024x768_1_0_0_1_n_n.lhsIdx j ((contrEquiv1 dot_S1024x256_S256x768_S1024x768_1_0_0_1_n_n 256 rfl rfl).symm k) = ix2 (n0 := 1024) (n1 := 256) (j 0) k := funext fun a => Fin.ext (by
    match a with
    | ⟨0, _⟩ => exact lhs0_0 _ _
    | ⟨1, _⟩ => exact (lhs0_1 _ _).trans hk)
  refine congrArg₂ (· * ·) ?_ ?_
  · exact congrArg x0 el
  · refine (transpose0_apply _ _ (j 1) k ((rhs0_0 _ _).trans hk) (rhs0_1 _ _)).trans ?_
    show shapeCast S768x256 x1 shapeCasts_S768x256_S768x256 (ix2 (n0 := 768) (n1 := 256) (j 1) k) = _
    rw [shapeCast_self]

/-! ## From the blocks to the array -/

theorem hz0 : (![0, 0] : Fin 2 → Nat) = fun _ => 0 := funext fun a => by fin_cases a <;> rfl

/-- The index maps over the four grid points: the input block and the output block are block `t` of their arrays'
    rows, the weight's block is the whole array at every point. -/
theorem idx_facts0 : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- Every row block of the result array is some point's. -/
theorem idx_onto0 : ∀ q0 : Fin 4, ∃ t : Fin cfg0.N, win0_2.index t = ![q0.val, 0] :=
  (by decide +kernel : ∀ q0 : Fin 4, ∃ t : Fin grid0.N, win0_2.index t = ![q0.val, 0])

/-- The input and the stacked weight as the region finds them, as matrices of extended reals. -/
abbrev arrX (c : Dev nD) : T2 4096 256 := V c main_arg0
abbrev arrW (c : Dev nD) : T2 768 256 := V c main_v0

/-- What point `t` writes back is block `t` of the stacked product of the arrays as the region finds them. -/
theorem flushed0_eq (c : Dev nD) (t : Fin cfg0.N) :
    (dat0 (F := Ideal) V c).flushed 2 t = ((cfg0.win 2).blk t).view.read (Elt Ideal) (projCat (V c main_arg0) (V c main_v0)) := by
  show (cfg0.win 2).cut (cfg0.grid.coords t) ((dat0 (F := Ideal) V c).after 2 t) = _
  rw [after0_2]
  unfold out0_2
  rw [View.canon_unit_zero hz0]
  simp only [View.ld_unit_zero (S := S1024x256) hz0, View.ld_unit_zero (S := S768x256) hz0]
  obtain ⟨e0, e1, e2, e3, e4, e5⟩ := idx_facts0 t
  funext y
  refine (pay0_apply (iblk0 V c 0 t) (iblk0 V c 1 t) y).trans ?_
  show _ = ∑ k : Fin 256, arrX V c (ix2 (n0 := 4096) (n1 := 256) ((((cfg0.win 2).blk t).view.emb y) 0) k)
      * arrW V c (ix2 (n0 := 768) (n1 := 256) ((((cfg0.win 2).blk t).view.emb y) 1) k)
  refine Finset.sum_congr rfl fun k _ => ?_
  show arrX V c (((cfg0.win 0).blk t).view.emb (ix2 (n0 := 1024) (n1 := 256) (y 0) k))
      * arrW V c (((cfg0.win 1).blk t).view.emb (ix2 (n0 := 768) (n1 := 256) (y 1) k)) = _
  have hy0 : (y 0).val < 1024 := (y 0).isLt
  have hy1 : (y 1).val < 768 := (y 1).isLt
  have hk : k.val < 256 := k.isLt
  have h0 : ((cfg0.win 0).blk t).view.emb (ix2 (n0 := 1024) (n1 := 256) (y 0) k)
      = ix2 (n0 := 4096) (n1 := 256) ((((cfg0.win 2).blk t).view.emb y) 0) k := by
    funext a; apply Fin.ext
    match a with
    | ⟨0, _⟩ => show win0_0.index t (0 : Fin 2) * 1024 + 1 * (y 0).val = win0_2.index t (0 : Fin 2) * 1024 + 1 * (y 0).val; omega
    | ⟨1, _⟩ => show win0_0.index t (1 : Fin 2) * 256 + 1 * k.val = k.val; omega
  have h1 : ((cfg0.win 1).blk t).view.emb (ix2 (n0 := 768) (n1 := 256) (y 1) k)
      = ix2 (n0 := 768) (n1 := 256) ((((cfg0.win 2).blk t).view.emb y) 1) k := by
    funext a; apply Fin.ext
    match a with
    | ⟨0, _⟩ => show win0_1.index t (0 : Fin 2) * 768 + 1 * (y 1).val = win0_2.index t (1 : Fin 2) * 768 + 1 * (y 1).val; omega
    | ⟨1, _⟩ => show win0_1.index t (1 : Fin 2) * 256 + 1 * k.val = k.val; omega
  rw [h0, h1]

/-- An index of the result array is in point `t`'s block iff each coordinate is in the block's range on its axis. -/
theorem mem_blk0 (t : Fin cfg0.N) (i : S4096x768.Idx) :
    i ∈ ((cfg0.win 2).blk t).view.set ↔ ∀ a : Fin 2, win0_2.index t a * S1024x768.size a ≤ (i a).val ∧ (i a).val < win0_2.index t a * S1024x768.size a + S1024x768.size a := by
  show i ∈ ((View.whole main_v1).slice (win0_2.rect t)).set ↔ _
  rw [View.set_slice_whole, Rect.mem_set_unit]
  exact Iff.rfl

/-- The four row blocks tile the array: row r is in block r / 1024. -/
theorem cover0 (i : S4096x768.Idx) :
    ∃ t : Fin cfg0.N, (cfg0.win 2).flush t = true ∧ i ∈ ((cfg0.win 2).blk t).view.set := by
  have hi0 : (i 0).val < 4096 := (i 0).isLt
  have hi1 : (i 1).val < 768 := (i 1).isLt
  obtain ⟨t, ht⟩ := idx_onto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 768 ≤ (i 1).val ∧ (i 1).val < win0_2.index t (1 : Fin 2) * 768 + 768; omega

/-- Region 0's result array after the region: block t (rows 1024·t … 1024·t + 1023) is what point t wrote, and the
    blocks tile the array. -/
theorem final0 (c : Dev nD) :
    (dat0 (F := Ideal) V c).arrAt 2 cfg0.N = projCat (V c main_arg0) (V c main_v0) :=
  (dat0 (F := Ideal) V c).arrAt_eq_of_cover 2 (projCat (V c main_arg0) (V c main_v0)) (fun t _ => flushed0_eq V c t) cover0

/-! ## The three slices of the stacked product -/

/-- Rows 0–255 of the stacked weight are wq's, -/
theorem catW_q (wq wk wv : T2 256 256) (r : Fin 768) (j k : Fin 256) (hr : r.val = j.val) :
    catW wq wk wv (ix2 (n0 := 768) (n1 := 256) r k) = wq (ix2 (n0 := 256) (n1 := 256) j k) := by
  have hj : j.val < 256 := j.isLt
  unfold catW
  have h0 : ((ix2 (n0 := 768) (n1 := 256) r k) 0).val < 256 := by show r.val < 256; omega
  rw [dif_pos h0]
  exact congrArg wq (funext fun a => by
    match a with
    | ⟨0, _⟩ => exact Fin.ext hr
    | ⟨1, _⟩ => rfl)
/-- rows 256–511 are wk's, -/
theorem catW_k (wq wk wv : T2 256 256) (r : Fin 768) (j k : Fin 256) (hr : r.val = 256 + j.val) :
    catW wq wk wv (ix2 (n0 := 768) (n1 := 256) r k) = wk (ix2 (n0 := 256) (n1 := 256) j k) := by
  have hj : j.val < 256 := j.isLt
  unfold catW
  have h0 : ¬((ix2 (n0 := 768) (n1 := 256) r k) 0).val < 256 := by show ¬r.val < 256; omega
  have h1 : ((ix2 (n0 := 768) (n1 := 256) r k) 0).val < 512 := by show r.val < 512; omega
  rw [dif_neg h0, dif_pos h1]
  exact congrArg wk (funext fun a => by
    match a with
    | ⟨0, _⟩ => exact Fin.ext (by show r.val - 256 = j.val; omega)
    | ⟨1, _⟩ => rfl)
/-- rows 512–767 are wv's. -/
theorem catW_v (wq wk wv : T2 256 256) (r : Fin 768) (j k : Fin 256) (hr : r.val = 512 + j.val) :
    catW wq wk wv (ix2 (n0 := 768) (n1 := 256) r k) = wv (ix2 (n0 := 256) (n1 := 256) j k) := by
  have hj : j.val < 256 := j.isLt
  unfold catW
  have h0 : ¬((ix2 (n0 := 768) (n1 := 256) r k) 0).val < 256 := by show ¬r.val < 256; omega
  have h1 : ¬((ix2 (n0 := 768) (n1 := 256) r k) 0).val < 512 := by show ¬r.val < 512; omega
  rw [dif_neg h0, dif_neg h1]
  exact congrArg wv (funext fun a => by
    match a with
    | ⟨0, _⟩ => exact Fin.ext (by show r.val - 512 = j.val; omega)
    | ⟨1, _⟩ => rfl)

/-- Columns 0–255 of the stacked product are x·wqᵀ; -/
theorem slice_q (x : T2 4096 256) (wq wk wv : T2 256 256) :
    sliceCols 0 (by decide) (projCat x (catW wq wk wv)) = proj x wq := by
  funext i
  show ∑ k : Fin 256, x (ix2 (n0 := 4096) (n1 := 256) (i 0) k) * catW wq wk wv (ix2 (n0 := 768) (n1 := 256) ⟨0 + (i 1).val, _⟩ k)
    = ∑ k : Fin 256, x (ix2 (n0 := 4096) (n1 := 256) (i 0) k) * wq (ix2 (n0 := 256) (n1 := 256) (i 1) k)
  refine Finset.sum_congr rfl fun k _ => ?_
  rw [catW_q wq wk wv _ (i 1) k (by show 0 + (i 1).val = (i 1).val; omega)]
/-- columns 256–511 are x·wkᵀ; -/
theorem slice_k (x : T2 4096 256) (wq wk wv : T2 256 256) :
    sliceCols 256 (by decide) (projCat x (catW wq wk wv)) = proj x wk := by
  funext i
  show ∑ k : Fin 256, x (ix2 (n0 := 4096) (n1 := 256) (i 0) k) * catW wq wk wv (ix2 (n0 := 768) (n1 := 256) ⟨256 + (i 1).val, _⟩ k)
    = ∑ k : Fin 256, x (ix2 (n0 := 4096) (n1 := 256) (i 0) k) * wk (ix2 (n0 := 256) (n1 := 256) (i 1) k)
  refine Finset.sum_congr rfl fun k _ => ?_
  rw [catW_k wq wk wv _ (i 1) k rfl]
/-- columns 512–767 are x·wvᵀ. -/
theorem slice_v (x : T2 4096 256) (wq wk wv : T2 256 256) :
    sliceCols 512 (by decide) (projCat x (catW wq wk wv)) = proj x wv := by
  funext i
  show ∑ k : Fin 256, x (ix2 (n0 := 4096) (n1 := 256) (i 0) k) * catW wq wk wv (ix2 (n0 := 768) (n1 := 256) ⟨512 + (i 1).val, _⟩ k)
    = ∑ k : Fin 256, x (ix2 (n0 := 4096) (n1 := 256) (i 0) k) * wv (ix2 (n0 := 256) (n1 := 256) (i 1) k)
  refine Finset.sum_congr rfl fun k _ => ?_
  rw [catW_v wq wk wv _ (i 1) k rfl]

end Cert.KernelIdeal.Val

end
-- ==== Proof.Val.K1.lean ====
/- The value of region 1: after its 256 grid points the 8×4096×32 result array holds the tanh attention of the three
   8×4096×32 operands. Query tile qi's block is written back once, at key tile 15, with the scratch sum of all 16 key
   tiles; the sum over the 4096 rows taken tile by tile is the whole sum. -/
import proofs.«123822_j11501922419472_1_alg».proof.Proof.KI.Reg1
import proofs.«123822_j11501922419472_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

variable (V : (c : Dev nD) → (b : Ref sig .tc) → Buf (Elt Ideal) ((c : Thread nD τ).loc b))

/-! ## The two batched products of the tile, index by index -/

/-- The scores product q·kᵀ per head: the left operand is read at (head, row, contraction). -/
theorem lhs_qk_0 (i : S8x256x256.Idx) (q : dot_S8x256x32_S8x256x32_S8x256x256_2_2_1_1_0_0.contr.Idx) :
    (dot_S8x256x32_S8x256x32_S8x256x256_2_2_1_1_0_0.lhsIdx i q 0).val = (i 0).val := by
  unfold DotDims.lhsIdx
  rw [dif_pos (show (0 : Fin S8x256x32.rank) ∈ dot_S8x256x32_S8x256x32_S8x256x256_2_2_1_1_0_0.lhsBatch by decide)]
  rfl
theorem lhs_qk_1 (i : S8x256x256.Idx) (q : dot_S8x256x32_S8x256x32_S8x256x256_2_2_1_1_0_0.contr.Idx) :
    (dot_S8x256x32_S8x256x32_S8x256x256_2_2_1_1_0_0.lhsIdx i q 1).val = (i 1).val := by
  unfold DotDims.lhsIdx
  rw [dif_neg (show ¬(1 : Fin S8x256x32.rank) ∈ dot_S8x256x32_S8x256x32_S8x256x256_2_2_1_1_0_0.lhsBatch by decide), dif_pos (show (1 : Fin S8x256x32.rank) ∈ dot_S8x256x32_S8x256x32_S8x256x256_2_2_1_1_0_0.lhsNonContracting by decide)]
  rfl
theorem lhs_qk_2 (i : S8x256x256.Idx) (q : dot_S8x256x32_S8x256x32_S8x256x256_2_2_1_1_0_0.contr.Idx) :
    (dot_S8x256x32_S8x256x32_S8x256x256_2_2_1_1_0_0.lhsIdx i q 2).val = (q ⟨0, by decide⟩).val :=
  dot_S8x256x32_S8x256x32_S8x256x256_2_2_1_1_0_0.lhsIdx_val_of_single rfl i q
/-- and the right operand at (head, column, contraction). -/
theorem rhs_qk_0 (i : S8x256x256.Idx) (q : dot_S8x256x32_S8x256x32_S8x256x256_2_2_1_1_0_0.contr.Idx) :
    (dot_S8x256x32_S8x256x32_S8x256x256_2_2_1_1_0_0.rhsIdx i q 0).val = (i 0).val := by
  unfold DotDims.rhsIdx
  rw [dif_pos (show (0 : Fin S8x256x32.rank) ∈ dot_S8x256x32_S8x256x32_S8x256x256_2_2_1_1_0_0.rhsBatch by decide)]
  rfl
theorem rhs_qk_1 (i : S8x256x256.Idx) (q : dot_S8x256x32_S8x256x32_S8x256x256_2_2_1_1_0_0.contr.Idx) :
    (dot_S8x256x32_S8x256x32_S8x256x256_2_2_1_1_0_0.rhsIdx i q 1).val = (i 2).val := by
  unfold DotDims.rhsIdx
  rw [dif_neg (show ¬(1 : Fin S8x256x32.rank) ∈ dot_S8x256x32_S8x256x32_S8x256x256_2_2_1_1_0_0.rhsBatch by decide), dif_pos (show (1 : Fin S8x256x32.rank) ∈ dot_S8x256x32_S8x256x32_S8x256x256_2_2_1_1_0_0.rhsNonContracting by decide)]
  rfl
theorem rhs_qk_2 (i : S8x256x256.Idx) (q : dot_S8x256x32_S8x256x32_S8x256x256_2_2_1_1_0_0.contr.Idx) :
    (dot_S8x256x32_S8x256x32_S8x256x256_2_2_1_1_0_0.rhsIdx i q 2).val = (q ⟨0, by decide⟩).val :=
  dot_S8x256x32_S8x256x32_S8x256x256_2_2_1_1_0_0.rhsIdx_val_of_single rfl i q

/-- The product of the tile's scores into the accumulator's zero: entry (h, r, j) is Σ_e x[h,r,e]·y[h,j,e]. -/
theorem qk_apply (x y : FVec Ideal S8x256x32 .bf16) (h : Fin 8) (r j : Fin 256) :
    matmul dot_S8x256x32_S8x256x32_S8x256x256_2_2_1_1_0_0 none x y (constant (F := Ideal) S8x256x256 .f32 0x00000000#32) (ix3 h r j)
      = ∑ e : Fin 32, x (ix3 h r e) * y (ix3 h j e) := by
  simp only [matmul]
  rw [Ideal.matmul_constant_zero_apply, ← Equiv.sum_comp (ValueIdx.contrEquiv1 dot_S8x256x32_S8x256x32_S8x256x256_2_2_1_1_0_0 32 rfl rfl).symm]
  refine Finset.sum_congr rfl fun k _ => ?_
  have hk := ValueIdx.contrEquiv1_symm_val dot_S8x256x32_S8x256x32_S8x256x256_2_2_1_1_0_0 32 rfl rfl k
  have el : dot_S8x256x32_S8x256x32_S8x256x256_2_2_1_1_0_0.lhsIdx (ix3 h r j) ((ValueIdx.contrEquiv1 dot_S8x256x32_S8x256x32_S8x256x256_2_2_1_1_0_0 32 rfl rfl).symm k) = ix3 h r k := funext fun a => Fin.ext (by
    match a with
    | ⟨0, _⟩ => exact lhs_qk_0 _ _
    | ⟨1, _⟩ => exact lhs_qk_1 _ _
    | ⟨2, _⟩ => exact (lhs_qk_2 _ _).trans hk)
  have er : dot_S8x256x32_S8x256x32_S8x256x256_2_2_1_1_0_0.rhsIdx (ix3 h r j) ((ValueIdx.contrEquiv1 dot_S8x256x32_S8x256x32_S8x256x256_2_2_1_1_0_0 32 rfl rfl).symm k) = ix3 h j k := funext fun a => Fin.ext (by
    match a with
    | ⟨0, _⟩ => exact rhs_qk_0 _ _
    | ⟨1, _⟩ => exact rhs_qk_1 _ _
    | ⟨2, _⟩ => exact (rhs_qk_2 _ _).trans hk)
  rw [el, er]

/-- The weighted sum p·v per head: the left operand is read at (head, row, contraction), -/
theorem lhs_pv_0 (i : S8x256x32.Idx) (q : dot_S8x256x256_S8x256x32_S8x256x32_2_1_1_2_0_0.contr.Idx) :
    (dot_S8x256x256_S8x256x32_S8x256x32_2_1_1_2_0_0.lhsIdx i q 0).val = (i 0).val := by
  unfold DotDims.lhsIdx
  rw [dif_pos (show (0 : Fin S8x256x256.rank) ∈ dot_S8x256x256_S8x256x32_S8x256x32_2_1_1_2_0_0.lhsBatch by decide)]
  rfl
theorem lhs_pv_1 (i : S8x256x32.Idx) (q : dot_S8x256x256_S8x256x32_S8x256x32_2_1_1_2_0_0.contr.Idx) :
    (dot_S8x256x256_S8x256x32_S8x256x32_2_1_1_2_0_0.lhsIdx i q 1).val = (i 1).val := by
  unfold DotDims.lhsIdx
  rw [dif_neg (show ¬(1 : Fin S8x256x256.rank) ∈ dot_S8x256x256_S8x256x32_S8x256x32_2_1_1_2_0_0.lhsBatch by decide), dif_pos (show (1 : Fin S8x256x256.rank) ∈ dot_S8x256x256_S8x256x32_S8x256x32_2_1_1_2_0_0.lhsNonContracting by decide)]
  rfl
theorem lhs_pv_2 (i : S8x256x32.Idx) (q : dot_S8x256x256_S8x256x32_S8x256x32_2_1_1_2_0_0.contr.Idx) :
    (dot_S8x256x256_S8x256x32_S8x256x32_2_1_1_2_0_0.lhsIdx i q 2).val = (q ⟨0, by decide⟩).val :=
  dot_S8x256x256_S8x256x32_S8x256x32_2_1_1_2_0_0.lhsIdx_val_of_single rfl i q
/-- and the right operand at (head, contraction, column). -/
theorem rhs_pv_0 (i : S8x256x32.Idx) (q : dot_S8x256x256_S8x256x32_S8x256x32_2_1_1_2_0_0.contr.Idx) :
    (dot_S8x256x256_S8x256x32_S8x256x32_2_1_1_2_0_0.rhsIdx i q 0).val = (i 0).val := by
  unfold DotDims.rhsIdx
  rw [dif_pos (show (0 : Fin S8x256x32.rank) ∈ dot_S8x256x256_S8x256x32_S8x256x32_2_1_1_2_0_0.rhsBatch by decide)]
  rfl
theorem rhs_pv_1 (i : S8x256x32.Idx) (q : dot_S8x256x256_S8x256x32_S8x256x32_2_1_1_2_0_0.contr.Idx) :
    (dot_S8x256x256_S8x256x32_S8x256x32_2_1_1_2_0_0.rhsIdx i q 1).val = (q ⟨0, by decide⟩).val :=
  dot_S8x256x256_S8x256x32_S8x256x32_2_1_1_2_0_0.rhsIdx_val_of_single rfl i q
theorem rhs_pv_2 (i : S8x256x32.Idx) (q : dot_S8x256x256_S8x256x32_S8x256x32_2_1_1_2_0_0.contr.Idx) :
    (dot_S8x256x256_S8x256x32_S8x256x32_2_1_1_2_0_0.rhsIdx i q 2).val = (i 2).val := by
  unfold DotDims.rhsIdx
  rw [dif_neg (show ¬(2 : Fin S8x256x32.rank) ∈ dot_S8x256x256_S8x256x32_S8x256x32_2_1_1_2_0_0.rhsBatch by decide), dif_pos (show (2 : Fin S8x256x32.rank) ∈ dot_S8x256x256_S8x256x32_S8x256x32_2_1_1_2_0_0.rhsNonContracting by decide)]
  rfl

/-- The weighted sum into the zero: entry (h, r, d) is Σ_j p[h,r,j]·y[h,j,d]. -/
theorem pv_apply (p : FVec Ideal S8x256x256 .bf16) (y : FVec Ideal S8x256x32 .bf16) (h : Fin 8) (r : Fin 256) (d : Fin 32) :
    matmul dot_S8x256x256_S8x256x32_S8x256x32_2_1_1_2_0_0 none p y (constant (F := Ideal) S8x256x32 .f32 0x00000000#32) (ix3 h r d)
      = ∑ j : Fin 256, p (ix3 h r j) * y (ix3 h j d) := by
  simp only [matmul]
  rw [Ideal.matmul_constant_zero_apply, ← Equiv.sum_comp (ValueIdx.contrEquiv1 dot_S8x256x256_S8x256x32_S8x256x32_2_1_1_2_0_0 256 rfl rfl).symm]
  refine Finset.sum_congr rfl fun k _ => ?_
  have hk := ValueIdx.contrEquiv1_symm_val dot_S8x256x256_S8x256x32_S8x256x32_2_1_1_2_0_0 256 rfl rfl k
  have el : dot_S8x256x256_S8x256x32_S8x256x32_2_1_1_2_0_0.lhsIdx (ix3 h r d) ((ValueIdx.contrEquiv1 dot_S8x256x256_S8x256x32_S8x256x32_2_1_1_2_0_0 256 rfl rfl).symm k) = ix3 h r k := funext fun a => Fin.ext (by
    match a with
    | ⟨0, _⟩ => exact lhs_pv_0 _ _
    | ⟨1, _⟩ => exact lhs_pv_1 _ _
    | ⟨2, _⟩ => exact (lhs_pv_2 _ _).trans hk)
  have er : dot_S8x256x256_S8x256x32_S8x256x32_2_1_1_2_0_0.rhsIdx (ix3 h r d) ((ValueIdx.contrEquiv1 dot_S8x256x256_S8x256x32_S8x256x32_2_1_1_2_0_0 256 rfl rfl).symm k) = ix3 h k d := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-- The cleared scratch is zero everywhere. -/
theorem k1_pay1_apply (i : S8x256x32.Idx) : k1_pay1 (F := Ideal) i = 0 := by
  unfold k1_pay1
  rw [shapeCast_self]
  exact Ideal.ofBits_zero_f32

/-- THE TILE'S TERM: what one grid point leaves in the scratch, at (h, r, d), is what it found there plus
    Σ_j tanh(Σ_e q[h,r,e]·k[h,j,e]) · v[h,j,d] over the 256 rows of the key tile. -/
theorem k1_pay2_apply (v3 v6 v9 v15 : Vec Ideal S8x256x32 .f32) (h : Fin 8) (r : Fin 256) (d : Fin 32) :
    k1_pay2 (F := Ideal) v3 v6 v9 v15 (ix3 h r d)
      = v15 (ix3 h r d) + ∑ j : Fin 256, Ideal.tanh (∑ e : Fin 32, v3 (ix3 h r e) * v6 (ix3 h j e)) * v9 (ix3 h j d) := by
  unfold k1_pay2
  simp only [shapeCast_self]
  rw [addf_apply, pv_apply]
  refine congrArg (v15 (ix3 h r d) + ·) (Finset.sum_congr rfl fun j _ => ?_)
  rw [truncf_apply]
  show Ideal.tanh (matmul dot_S8x256x32_S8x256x32_S8x256x256_2_2_1_1_0_0 none _ _ (constant (F := Ideal) S8x256x256 .f32 0x00000000#32) (ix3 h r j)) * _ = _
  rw [qk_apply]
  rfl

/-! ## The blocks a point reads -/

/-- The block-index maps at every grid point: at point t the query and output blocks are row tile t / 16,
    the key and value blocks row tile t % 16; the head and width axes are whole. -/
theorem idx_facts1 : ∀ t : Fin cfg1.N,
    win1_0.index t (0 : Fin 3) = 0 ∧ win1_0.index t (1 : Fin 3) = t.val / 16 ∧ win1_0.index t (2 : Fin 3) = 0
    ∧ win1_1.index t (0 : Fin 3) = 0 ∧ win1_1.index t (1 : Fin 3) = t.val % 16 ∧ win1_1.index t (2 : Fin 3) = 0
    ∧ win1_2.index t (0 : Fin 3) = 0 ∧ win1_2.index t (1 : Fin 3) = t.val % 16 ∧ win1_2.index t (2 : Fin 3) = 0
    ∧ win1_3.index t (0 : Fin 3) = 0 ∧ win1_3.index t (1 : Fin 3) = t.val / 16 ∧ win1_3.index t (2 : Fin 3) = 0 :=
  (by decide +kernel : ∀ t : Fin grid1.N, _)

/-- Row r of row tile b of the 4096 rows. -/
abbrev rowOfTile (b : Nat) (hb : b < 16) (r : Fin 256) : Fin 4096 := ⟨b * 256 + r.val, by have := r.isLt; omega⟩

theorem qtile_lt (t : Fin cfg1.N) : t.val / 16 < 16 := by have := t.isLt; have : cfg1.N = 256 := N_1; omega
theorem ktile_lt (t : Fin cfg1.N) : t.val % 16 < 16 := Nat.mod_lt _ (by decide)

/-- The three operands, and the block of each that point t reads. -/
abbrev opQ (c : Dev nD) : T3 8 4096 32 := V c main_v6
abbrev opK (c : Dev nD) : T3 8 4096 32 := V c main_v8
abbrev opV (c : Dev nD) : T3 8 4096 32 := V c main_v10
abbrev blkQ (c : Dev nD) (t : Fin cfg1.N) : Vec Ideal S8x256x32 .f32 := iblk1 V c 0 t
abbrev blkK (c : Dev nD) (t : Fin cfg1.N) : Vec Ideal S8x256x32 .f32 := iblk1 V c 1 t
abbrev blkV (c : Dev nD) (t : Fin cfg1.N) : Vec Ideal S8x256x32 .f32 := iblk1 V c 2 t

/-- The query block at point t is rows 256·(t / 16) … of the query operand, -/
theorem blkQ_apply (c : Dev nD) (t : Fin cfg1.N) (h : Fin 8) (r : Fin 256) (e : Fin 32) :
    blkQ V c t (ix3 h r e) = opQ V c (ix3 h (rowOfTile (t.val / 16) (qtile_lt t) r) e) := by
  obtain ⟨e0, e1, e2, -⟩ := idx_facts1 t
  show V c main_v6 (((cfg1.win 0).blk t).view.emb (ix3 h r e)) = _
  refine congrArg (V c main_v6) (funext fun a => Fin.ext ?_)
  match a with
  | ⟨0, _⟩ => show win1_0.index t (0 : Fin 3) * 8 + 1 * h.val = h.val; omega
  | ⟨1, _⟩ => show win1_0.index t (1 : Fin 3) * 256 + 1 * r.val = t.val / 16 * 256 + r.val; omega
  | ⟨2, _⟩ => show win1_0.index t (2 : Fin 3) * 32 + 1 * e.val = e.val; omega

/-- the key block rows 256·(t % 16) … of the key operand, -/
theorem blkK_apply (c : Dev nD) (t : Fin cfg1.N) (h : Fin 8) (r : Fin 256) (e : Fin 32) :
    blkK V c t (ix3 h r e) = opK V c (ix3 h (rowOfTile (t.val % 16) (ktile_lt t) r) e) := by
  obtain ⟨-, -, -, e0, e1, e2, -⟩ := idx_facts1 t
  show V c main_v8 (((cfg1.win 1).blk t).view.emb (ix3 h r e)) = _
  refine congrArg (V c main_v8) (funext fun a => Fin.ext ?_)
  match a with
  | ⟨0, _⟩ => show win1_1.index t (0 : Fin 3) * 8 + 1 * h.val = h.val; omega
  | ⟨1, _⟩ => show win1_1.index t (1 : Fin 3) * 256 + 1 * r.val = t.val % 16 * 256 + r.val; omega
  | ⟨2, _⟩ => show win1_1.index t (2 : Fin 3) * 32 + 1 * e.val = e.val; omega

/-- and the value block the same rows of the value operand. -/
theorem blkV_apply (c : Dev nD) (t : Fin cfg1.N) (h : Fin 8) (r : Fin 256) (e : Fin 32) :
    blkV V c t (ix3 h r e) = opV V c (ix3 h (rowOfTile (t.val % 16) (ktile_lt t) r) e) := by
  obtain ⟨-, -, -, -, -, -, e0, e1, e2, -⟩ := idx_facts1 t
  show V c main_v10 (((cfg1.win 2).blk t).view.emb (ix3 h r e)) = _
  refine congrArg (V c main_v10) (funext fun a => Fin.ext ?_)
  match a with
  | ⟨0, _⟩ => show win1_2.index t (0 : Fin 3) * 8 + 1 * h.val = h.val; omega
  | ⟨1, _⟩ => show win1_2.index t (1 : Fin 3) * 256 + 1 * r.val = t.val % 16 * 256 + r.val; omega
  | ⟨2, _⟩ => show win1_2.index t (2 : Fin 3) * 32 + 1 * e.val = e.val; omega

/-! ## The scratch sum, key tile by key tile -/

/-- The term of key tile kt for query tile qi at (h, r, d): Σ_j tanh(q[h, 256·qi + r, ·]·k[h, 256·kt + j, ·]) · v[h, 256·kt + j, d]. -/
def tileTerm (q k v : T3 8 4096 32) (qi kt : Nat) (h : Fin 8) (r : Fin 256) (d : Fin 32) : EReal :=
  if hh : qi < 16 ∧ kt < 16 then
    ∑ j : Fin 256, Ideal.tanh (∑ e : Fin 32, q (ix3 h (rowOfTile qi hh.1 r) e) * k (ix3 h (rowOfTile kt hh.2 j) e))
      * v (ix3 h (rowOfTile kt hh.2 j) d)
  else 0

/-- One grid point adds its key tile's term to what it finds in the scratch. -/
theorem step_apply (c : Dev nD) (t : Fin cfg1.N) (prev : Vec Ideal S8x256x32 .f32) (h : Fin 8) (r : Fin 256) (d : Fin 32) :
    k1_pay2 (F := Ideal) (blkQ V c t) (blkK V c t) (blkV V c t) prev (ix3 h r d)
      = prev (ix3 h r d) + tileTerm (opQ V c) (opK V c) (opV V c) (t.val / 16) (t.val % 16) h r d := by
  refine (k1_pay2_apply _ _ _ _ h r d).trans (congrArg (prev (ix3 h r d) + ·) ?_)
  unfold tileTerm
  rw [dif_pos ⟨qtile_lt t, ktile_lt t⟩]
  refine Finset.sum_congr rfl fun j _ => ?_
  rw [blkV_apply]
  refine congrArg (fun x => Ideal.tanh x * _) (Finset.sum_congr rfl fun e _ => ?_)
  rw [blkQ_apply, blkK_apply]

/-- A sum over the first key tile alone. -/
theorem sum_first_tile (f : Nat → EReal) (m : Nat) (hm : m = 0) : f m = ∑ kt ∈ Finset.range (m + 1), f kt := by
  subst hm; exact (Finset.sum_range_one f).symm

/-- THE INVARIANT: after point n the scratch holds, at (h, r, d), the terms of the key tiles 0 … n % 16 of query tile n / 16. -/
theorem acc1_apply (c : Dev nD) : ∀ (n : Nat) (hn : n < cfg1.N) (h : Fin 8) (r : Fin 256) (d : Fin 32),
    (acc1 V c n hn : Vec Ideal S8x256x32 .f32) (ix3 h r d)
      = ∑ kt ∈ Finset.range (n % 16 + 1), tileTerm (opQ V c) (opK V c) (opV V c) (n / 16) kt h r d := by
  intro n
  induction n with
  | zero =>
    intro hn h r d
    have e := acc1_first V c ⟨0, hn⟩ rfl
    refine (congrFun e (ix3 h r d)).trans ?_
    refine (step_apply V c ⟨0, hn⟩ _ h r d).trans ?_
    rw [k1_pay1_apply, zero_add]
    exact sum_first_tile (fun kt => tileTerm (opQ V c) (opK V c) (opV V c) (0 / 16) kt h r d) (0 % 16) rfl
  | succ n ih =>
    intro hn h r d
    by_cases hz : (n + 1) % 16 = 0
    · have e := acc1_first V c ⟨n + 1, hn⟩ hz
      refine (congrFun e (ix3 h r d)).trans ?_
      refine (step_apply V c ⟨n + 1, hn⟩ _ h r d).trans ?_
      rw [k1_pay1_apply, zero_add]
      exact sum_first_tile (fun kt => tileTerm (opQ V c) (opK V c) (opV V c) ((n + 1) / 16) kt h r d) ((n + 1) % 16) hz
    · have e := acc1_next V c ⟨n + 1, hn⟩ hz
      refine (congrFun e (ix3 h r d)).trans ?_
      refine (step_apply V c ⟨n + 1, hn⟩ _ h r d).trans ?_
      show (acc1 V c n (Nat.lt_of_succ_lt hn) : Vec Ideal S8x256x32 .f32) (ix3 h r d) + tileTerm _ _ _ ((n + 1) / 16) ((n + 1) % 16) h r d = _
      rw [ih (Nat.lt_of_succ_lt hn) h r d]
      have h1 : n / 16 = (n + 1) / 16 := by omega
      have h2 : n % 16 + 1 = (n + 1) % 16 := by omega
      rw [h1, h2]
      exact (Finset.sum_range_succ _ _).symm

/-! ## From the blocks to the array -/

/-- At the last key tile the scratch holds the attention entry of its row: the 16 tiles' terms are the whole sum. -/
theorem tiles_eq_attn (q k v : T3 8 4096 32) (qi : Nat) (hq : qi < 16) (h : Fin 8) (r : Fin 256) (d : Fin 32) :
    ∑ kt ∈ Finset.range 16, tileTerm q k v qi kt h r d = attn q k v (ix3 h (rowOfTile qi hq r) d) := by
  rw [← Fin.sum_univ_eq_sum_range (fun kt => tileTerm q k v qi kt h r d) 16]
  show _ = ∑ m : Fin 4096, Ideal.tanh (∑ e : Fin 32, q (ix3 h (rowOfTile qi hq r) e) * k (ix3 h m e)) * v (ix3 h m d)
  rw [← sum_tiles (fun m => Ideal.tanh (∑ e : Fin 32, q (ix3 h (rowOfTile qi hq r) e) * k (ix3 h m e)) * v (ix3 h m d))]
  refine Finset.sum_congr rfl fun kt _ => ?_
  unfold tileTerm
  rw [dif_pos ⟨hq, kt.isLt⟩]

/-- The output block of point t sits at rows 256·(t / 16) … of the result. -/
theorem emb_out (t : Fin cfg1.N) (h : Fin 8) (r : Fin 256) (d : Fin 32) :
    ((cfg1.win 3).blk t).view.emb (ix3 h r d) = ix3 (n0 := 8) (n1 := 4096) (n2 := 32) h (rowOfTile (t.val / 16) (qtile_lt t) r) d := by
  obtain ⟨-, -, -, -, -, -, -, -, -, e0, e1, e2⟩ := idx_facts1 t
  refine funext fun a => Fin.ext ?_
  match a with
  | ⟨0, _⟩ => show win1_3.index t (0 : Fin 3) * 8 + 1 * h.val = h.val; omega
  | ⟨1, _⟩ => show win1_3.index t (1 : Fin 3) * 256 + 1 * r.val = t.val / 16 * 256 + r.val; omega
  | ⟨2, _⟩ => show win1_3.index t (2 : Fin 3) * 32 + 1 * d.val = d.val; omega

/-- What a point of the last key tile leaves in the scratch is its block of the attention. -/
theorem out_apply (c : Dev nD) (t : Fin cfg1.N) (ht : t.val % 16 = 15) (y : S8x256x32.Idx) :
    (acc1 V c t.val t.isLt : Vec Ideal S8x256x32 .f32) y = attn (opQ V c) (opK V c) (opV V c) (((cfg1.win 3).blk t).view.emb y) := by
  obtain ⟨h, r, d, rfl⟩ : ∃ (h : Fin 8) (r : Fin 256) (d : Fin 32), y = ix3 h r d := ⟨y 0, y 1, y 2, eq_ix3 y⟩
  rw [acc1_apply, emb_out, ht]
  exact tiles_eq_attn _ _ _ _ (qtile_lt t) h r d

/-- WHAT A POINT OF THE LAST KEY TILE WRITES BACK is its block of the attention of the three operands. -/
theorem flushed1_3_eq (c : Dev nD) (t : Fin cfg1.N) (ht : t.val % 16 = 15) :
    (dat1 V c).flushed 3 t = ((cfg1.win 3).blk t).view.read (Elt Ideal) (attn (opQ V c) (opK V c) (opV V c)) := by
  show (cfg1.win 3).cut (cfg1.grid.coords t) ((dat1 V c).after 3 t) = _
  rw [after1_3]
  funext y
  exact out_apply V c t ht y

/-- An index of the result is in point t's block iff each coordinate is in the block's range on its axis. -/
theorem mem_blk1_3 (t : Fin cfg1.N) (i : S8x4096x32.Idx) :
    i ∈ ((cfg1.win 3).blk t).view.set ↔ ∀ a : Fin 3, win1_3.index t a * S8x256x32.size a ≤ (i a).val ∧ (i a).val < win1_3.index t a * S8x256x32.size a + S8x256x32.size a := by
  show i ∈ ((View.whole main_v11).slice (win1_3.rect t)).set ↔ _
  rw [View.set_slice_whole, Rect.mem_set_unit]
  exact Iff.rfl

/-- Every index of the result is in the block some point of the last key tile writes back: row n is in query tile n / 256. -/
theorem cover1_3 (i : S8x4096x32.Idx) :
    ∃ t : Fin cfg1.N, (cfg1.win 3).flush t = true ∧ i ∈ ((cfg1.win 3).blk t).view.set := by
  have hi0 : (i 0).val < 8 := (i 0).isLt
  have hi1 : (i 1).val < 4096 := (i 1).isLt
  have hi2 : (i 2).val < 32 := (i 2).isLt
  have hN : cfg1.N = 256 := N_1
  obtain ⟨t, htv⟩ : ∃ t : Fin cfg1.N, t.val = (i 1).val / 256 * 16 + 15 := ⟨⟨(i 1).val / 256 * 16 + 15, by omega⟩, rfl⟩
  refine ⟨t, (flush1_3 t).mpr (by omega), ?_⟩
  rw [mem_blk1_3]
  obtain ⟨-, -, -, -, -, -, -, -, -, e0, e1, e2⟩ := idx_facts1 t
  intro a
  match a with
  | ⟨0, _⟩ => show win1_3.index t (0 : Fin 3) * 8 ≤ (i 0).val ∧ (i 0).val < win1_3.index t (0 : Fin 3) * 8 + 8; omega
  | ⟨1, _⟩ => show win1_3.index t (1 : Fin 3) * 256 ≤ (i 1).val ∧ (i 1).val < win1_3.index t (1 : Fin 3) * 256 + 256; omega
  | ⟨2, _⟩ => show win1_3.index t (2 : Fin 3) * 32 ≤ (i 2).val ∧ (i 2).val < win1_3.index t (2 : Fin 3) * 32 + 32; omega

/-- THE RESULT ARRAY after the region's 256 points: the tanh attention of the three operands, every block of it written once. -/
theorem final1 (c : Dev nD) :
    (dat1 (F := Ideal) V c).arrAt 3 cfg1.N = attn (V c main_v6) (V c main_v8) (V c main_v10) :=
  (dat1 V c).arrAt_eq_of_cover 3 (attn (opQ V c) (opK V c) (opV V c))
    (fun t hf => flushed1_3_eq V c t ((flush1_3 t).mp hf)) cover1_3

end Cert.KernelIdeal.Val

end
-- ==== Proof.Val.K2.lean ====
/- The value of region 2: after its four grid points the 4096×256 result array holds max(a·wᵀ + b, 0) of the merged
   attention output a, the weight w and the bias row b. -/
import proofs.«123822_j11501922419472_1_alg».proof.Proof.KI.Reg2
import proofs.«123822_j11501922419472_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

/-! ## The body's stored value at an entry -/

theorem lhs_ffn_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhs_ffn_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhs_ffn_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhs_ffn_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The product into the zero accumulator at an entry: the sum over the contracted axis. -/
theorem matmul_ffn_apply (a : FVec Ideal S1024x256 .bf16) (b : FVec Ideal S256x256 .bf16) (p : Fin 1024) (q : Fin 256) :
    matmul dot_S1024x256_S256x256_S1024x256_1_0_0_1_n_n none a b (constant (F := Ideal) S1024x256 .f32 0x00000000#32) (ix2 p q)
      = ∑ k : Fin 256, a (ix2 p k) * b (ix2 k q) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun a => Fin.ext (by
    match a with
    | ⟨0, _⟩ => exact lhs_ffn_0 _ _
    | ⟨1, _⟩ => exact (lhs_ffn_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun a => Fin.ext (by
    match a with
    | ⟨0, _⟩ => exact (rhs_ffn_0 _ _).trans hk
    | ⟨1, _⟩ => exact rhs_ffn_1 _ _)
  rw [el, er]

/-- The transposed weight at (k, q) is the weight at (q, k). -/
theorem transpose_ffn_apply {α : Type} (w : S256x256.Idx → α) (k q : Fin 256) :
    transpose S256x256 [1, 0] w transposes_S256x256_p1_0_S256x256 (ix2 k q) = w (ix2 q k) :=
  transpose_apply [1, 0] w transposes_S256x256_p1_0_S256x256 (ix2 k q) (ix2 q k) (fun b => match b with
    | ⟨0, _⟩ => rfl
    | ⟨1, _⟩ => rfl)

/-- The bias row broadcast down the rows at (p, q) is the row at (0, q). -/
theorem broadcast_ffn_apply {α : Type} (b : S1x256.Idx → α) (p : Fin 1024) (q : Fin 256) :
    broadcastTo S1024x256 b broadcasts_S1x256_S1024x256 (ix2 p q) = b (ix2 0 q) :=
  broadcastTo_apply b broadcasts_S1x256_S1024x256 (ix2 p q) (ix2 0 q) (fun a => match a with
    | ⟨0, _⟩ => rfl
    | ⟨1, _⟩ => rfl)

/-- The body's stored value at (p, q): max(Σ_k x0[p,k]·x1[q,k] + x2[0,q], 0). -/
theorem pay_ffn_apply (x0 : Vec Ideal S1024x256 .f32) (x1 : Vec Ideal S256x256 .f32) (x2 : Vec Ideal S1x256 .f32) (p : Fin 1024) (q : Fin 256) :
    k2_pay1 x0 x1 x2 (ix2 p q) = max ((∑ k : Fin 256, x0 (ix2 p k) * x1 (ix2 q k)) + x2 (ix2 0 q)) 0 := by
  unfold k2_pay1
  simp only [shapeCast_self]
  rw [maximumf_apply, addf_apply, broadcast_apply]
  refine congrArg₂ max (congrArg₂ (· + ·) ?_ ?_) ?_
  · refine (matmul_ffn_apply _ _ p q).trans (Finset.sum_congr rfl fun k _ => ?_)
    rw [transpose_ffn_apply]; rfl
  · exact broadcast_ffn_apply x2 p q
  · exact Ideal.ofBits_zero_f32

/-! ## From the blocks to the array -/

variable (V : (c : Dev nD) → (b : Ref sig .tc) → Buf (Elt Ideal) ((c : Thread nD τ).loc b))

/-- A block entry of the result from the three input blocks, once each input entry it reads is named in its array. -/
theorem ffn_point (x0 : Vec Ideal S1024x256 .f32) (x1 : Vec Ideal S256x256 .f32) (x2 : Vec Ideal S1x256 .f32)
    (a : T2 4096 256) (w : T2 256 256) (b : T2 1 256) (r : Fin 4096) (p : Fin 1024) (q : Fin 256)
    (h0 : ∀ k : Fin 256, x0 (ix2 p k) = a (ix2 r k)) (h1 : ∀ k : Fin 256, x1 (ix2 q k) = w (ix2 q k))
    (h2 : x2 (ix2 0 q) = b (ix2 0 q)) :
    k2_pay1 x0 x1 x2 (ix2 p q) = ffnRow a w b (ix2 r q) := by
  refine (pay_ffn_apply x0 x1 x2 p q).trans ?_
  show max ((∑ k : Fin 256, x0 (ix2 p k) * x1 (ix2 q k)) + x2 (ix2 0 q)) 0
    = max ((∑ k : Fin 256, a (ix2 r k) * w (ix2 q k)) + b (ix2 0 q)) 0
  have hs : (∑ k : Fin 256, x0 (ix2 p k) * x1 (ix2 q k)) = ∑ k : Fin 256, a (ix2 r k) * w (ix2 q k) :=
    Finset.sum_congr rfl fun k _ => by rw [h0 k, h1 k]
  rw [hs, h2]

theorem hz2 : (![0, 0] : Fin 2 → Nat) = fun _ => 0 := funext fun a => by fin_cases a <;> rfl

/-- The printed index maps over the four grid points: the row blocks move with the point, the weight and the bias stay. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 4 :=
  (by decide +kernel : ∀ t : Fin grid2.N, _)

/-- Every row block of the result is some point's. -/
theorem idx_onto2 : ∀ (q0 : Fin 4), ∃ t : Fin cfg2.N, win2_3.index t = ![q0.val, 0] :=
  (by decide +kernel : ∀ (q0 : Fin 4), ∃ t : Fin grid2.N, win2_3.index t = ![q0.val, 0])

/-- What point t writes back is block t of the layer of the whole arrays. -/
theorem flushed2_eq (c : Dev nD) (t : Fin cfg2.N) :
    (dat2 (F := Ideal) V c).flushed 3 t
      = ((cfg2.win 3).blk t).view.read (Elt Ideal) (ffnRow (V c main_v13) (V c main_arg4) (V c main_v14)) := by
  show (cfg2.win 3).cut (cfg2.grid.coords t) ((dat2 V c).after 3 t) = _
  rw [after2_3]
  unfold out2_3
  rw [View.canon_unit_zero hz2]
  simp only [View.ld_unit_zero (S := S1024x256) hz2, View.ld_unit_zero (S := S256x256) hz2, View.ld_unit_zero (S := S1x256) hz2]
  obtain ⟨e00, e01, e10, e11, e20, e21, e30, e31, hlt⟩ := idx_facts2 t
  funext j
  obtain ⟨p, q, rfl⟩ : ∃ (p : Fin 1024) (q : Fin 256), j = ix2 p q := ⟨j 0, j 1, eq_ix2 j⟩
  have hp : p.val < 1024 := p.isLt
  have hq : q.val < 256 := q.isLt
  show k2_pay1 (iblk2 V c 0 t) (iblk2 V c 1 t) (iblk2 V c 2 t) (ix2 p q)
    = ffnRow (V c main_v13) (V c main_arg4) (V c main_v14) (((cfg2.win 3).blk t).view.emb (ix2 p q))
  have hemb : ((cfg2.win 3).blk t).view.emb (ix2 p q) = ix2 (n0 := 4096) (n1 := 256) ⟨t.val * 1024 + p.val, by omega⟩ q := by
    funext a; apply Fin.ext
    match a with
    | ⟨0, _⟩ => show win2_3.index t (0 : Fin 2) * 1024 + 1 * p.val = t.val * 1024 + p.val; omega
    | ⟨1, _⟩ => show win2_3.index t (1 : Fin 2) * 256 + 1 * q.val = q.val; omega
  rw [hemb]
  refine ffn_point _ _ _ _ _ _ _ p q (fun k => ?_) (fun k => ?_) ?_
  · have hk : k.val < 256 := k.isLt
    show V c main_v13 (((cfg2.win 0).blk t).view.emb (ix2 p k)) = V c main_v13 (ix2 (n0 := 4096) (n1 := 256) ⟨t.val * 1024 + p.val, by omega⟩ k)
    refine congrArg _ (funext fun a => Fin.ext ?_)
    match a with
    | ⟨0, _⟩ => show win2_0.index t (0 : Fin 2) * 1024 + 1 * p.val = t.val * 1024 + p.val; omega
    | ⟨1, _⟩ => show win2_0.index t (1 : Fin 2) * 256 + 1 * k.val = k.val; omega
  · have hk : k.val < 256 := k.isLt
    show V c main_arg4 (((cfg2.win 1).blk t).view.emb (ix2 q k)) = V c main_arg4 (ix2 (n0 := 256) (n1 := 256) q k)
    refine congrArg _ (funext fun a => Fin.ext ?_)
    match a with
    | ⟨0, _⟩ => show win2_1.index t (0 : Fin 2) * 256 + 1 * q.val = q.val; omega
    | ⟨1, _⟩ => show win2_1.index t (1 : Fin 2) * 256 + 1 * k.val = k.val; omega
  · show V c main_v14 (((cfg2.win 2).blk t).view.emb (ix2 0 q)) = V c main_v14 (ix2 (n0 := 1) (n1 := 256) 0 q)
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * q.val = q.val; omega

/-- An index of the result array is in point t's block iff each coordinate is in the block's range on its axis. -/
theorem mem_blk2 (t : Fin cfg2.N) (i : S4096x256.Idx) :
    i ∈ ((cfg2.win 3).blk t).view.set ↔ ∀ a : Fin 2, win2_3.index t a * S1024x256.size a ≤ (i a).val ∧ (i a).val < win2_3.index t a * S1024x256.size a + S1024x256.size a := by
  show i ∈ ((View.whole main_v15).slice (win2_3.rect t)).set ↔ _
  rw [View.set_slice_whole, Rect.mem_set_unit]
  exact Iff.rfl

/-- Row r of the result is in the block of point r / 1024. -/
theorem cover2 (i : S4096x256.Idx) : ∃ t : Fin cfg2.N, (cfg2.win 3).flush t = true ∧ i ∈ ((cfg2.win 3).blk t).view.set := by
  have hi0 : (i 0).val < 4096 := (i 0).isLt
  have hi1 : (i 1).val < 256 := (i 1).isLt
  obtain ⟨t, ht⟩ := idx_onto2 ⟨(i 0).val / 1024, by omega⟩
  have q0 : win2_3.index t (0 : Fin 2) = (i 0).val / 1024 := congrFun ht 0
  have q1 : win2_3.index t (1 : Fin 2) = 0 := congrFun ht 1
  refine ⟨t, flush2_3 t, ?_⟩
  rw [mem_blk2]
  intro a
  match a with
  | ⟨0, _⟩ => show win2_3.index t (0 : Fin 2) * 1024 ≤ (i 0).val ∧ (i 0).val < win2_3.index t (0 : Fin 2) * 1024 + 1024; omega
  | ⟨1, _⟩ => show win2_3.index t (1 : Fin 2) * 256 ≤ (i 1).val ∧ (i 1).val < win2_3.index t (1 : Fin 2) * 256 + 256; omega

theorem final2 (c : Dev nD) :
    (dat2 (F := Ideal) V c).arrAt 3 cfg2.N = ffnRow (V c main_v13) (V c main_arg4) (V c main_v14) :=
  (dat2 (F := Ideal) V c).arrAt_eq_of_cover 3 (ffnRow (V c main_v13) (V c main_arg4) (V c main_v14))
    (fun t _ => flushed2_eq V c t) cover2

/-- The bias as a row or as a vector: the same layer. -/
theorem ffnRow_rowOf (a : T2 4096 256) (w : T2 256 256) (b : T1 256) : ffnRow a w (rowOf b) = ffn a w b := by
  funext i
  unfold ffnRow ffn rowOf
  rfl

end Cert.KernelIdeal.Val

end
-- ==== Proof.Val.Host.lean ====
/- What the host operations between the regions compute, read at the ideal values from ANY buffer contents U they
   start from: the stacking of the three weights before region 0; the three column slices of region 0's result, each
   split into heads, before region 1; the merging of the heads of region 1's result and the bias as a row before
   region 2. -/
import proofs.«123822_j11501922419472_1_alg».proof.Proof.Gen.KernelIdeal.Launch
import Idealize.ShloMosaic.Lib.StableHlo.Run
import proofs.«123822_j11501922419472_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Spec

variable (U : Valuation τ sig (Elt Ideal))

/-- A vector cast to a 1×256 row reads, at (u, j), the vector at j. -/
theorem cast_rowOf (b : T1 256) : shapeCast S1x256 b shapeCasts_S256_S1x256 = rowOf b := by
  funext i
  rw [eq_ix2 i]
  exact shapeCast_a_1a_apply b shapeCasts_S256_S1x256 (i 0) (i 1)

/-- Columns o … o+255 cut out, split 256 = 8·32 and the head axis moved first: entry (h, n, d) is entry
    (n, o + h·32 + d) of the matrix. -/
theorem cast_splitHeads (o : Nat) (ho : o + 256 ≤ 768) (y : T2 4096 768) (hs : S4096x768.Slices ![0, o] S4096x256) :
    transpose S8x4096x32 [1, 0, 2]
        (shapeCast S4096x8x32 (extractStridedSlice S4096x256 ![0, o] y hs) shapeCasts_S4096x256_S4096x8x32)
        transposes_S4096x8x32_S8x4096x32_1_0_2
      = splitHeads (sliceCols o ho y) := by
  funext i
  have h0 : (i 0).val < 8 := (i 0).isLt
  have h1 : (i 1).val < 4096 := (i 1).isLt
  have h2 : (i 2).val < 32 := (i 2).isLt
  refine (transpose_apply [1, 0, 2] _ transposes_S4096x8x32_S8x4096x32_1_0_2 i
    (ix3 (n0 := 4096) (n1 := 8) (n2 := 32) (i 1) (i 0) (i 2)) (fun b => match b with
      | ⟨0, _⟩ => rfl
      | ⟨1, _⟩ => rfl
      | ⟨2, _⟩ => rfl)).trans ?_
  refine (shapeCast_apply _ shapeCasts_S4096x256_S4096x8x32 _
    (ix2 (n0 := 4096) (n1 := 256) (i 1) ⟨(i 0).val * 32 + (i 2).val, by omega⟩) (by
      rewrite [Shape.rowMajor_val_two, Shape.rowMajor_val_three]
      show (i 1).val * 256 + ((i 0).val * 32 + (i 2).val) = ((i 1).val * 8 + (i 0).val) * 32 + (i 2).val
      omega)).trans ?_
  exact slice2_axis1_apply o y hs (i 1) _ ⟨o + ((i 0).val * 32 + (i 2).val), by omega⟩ rfl

/-- The head axis moved back behind the rows and 8·32 merged into 256: entry (n, c) is entry (c / 32, n, c % 32). -/
theorem cast_mergeHeads (z : T3 8 4096 32) :
    shapeCast S4096x256 (transpose S4096x8x32 [1, 0, 2] z transposes_S8x4096x32_S4096x8x32_1_0_2) shapeCasts_S4096x8x32_S4096x256
      = mergeHeads z := by
  funext i
  have h0 : (i 0).val < 4096 := (i 0).isLt
  have h1 : (i 1).val < 256 := (i 1).isLt
  refine (shapeCast_apply _ shapeCasts_S4096x8x32_S4096x256 i
    (ix3 (n0 := 4096) (n1 := 8) (n2 := 32) (i 0) ⟨(i 1).val / 32, by omega⟩ ⟨(i 1).val % 32, Nat.mod_lt _ (by decide)⟩) (by
      rewrite [Shape.rowMajor_val_three, Shape.rowMajor_val_two]
      show ((i 0).val * 8 + (i 1).val / 32) * 32 + (i 1).val % 32 = (i 0).val * 256 + (i 1).val
      omega)).trans ?_
  exact transpose_apply [1, 0, 2] z transposes_S8x4096x32_S4096x8x32_1_0_2 _
    (ix3 (n0 := 8) (n1 := 4096) (n2 := 32) ⟨(i 1).val / 32, by omega⟩ (i 0) ⟨(i 1).val % 32, Nat.mod_lt _ (by decide)⟩) (fun b => match b with
      | ⟨0, _⟩ => rfl
      | ⟨1, _⟩ => rfl
      | ⟨2, _⟩ => rfl)

/-- Three 256×256 matrices stacked by rows: row r is row r of the first below 256, row r − 256 of the second below
    512, row r − 512 of the third from there on. -/
theorem cast_catW (wq wk wv : T2 256 256) :
    concatenate S768x256 0 [⟨S256x256, wq⟩, ⟨S256x256, wk⟩, ⟨S256x256, wv⟩]
        concatenates_S256x256_S256x256_S256x256_S768x256_d0
      = catW wq wk wv := by
  funext i
  have hi0 : (i 0).val < 768 := (i 0).isLt
  show _ = if h0 : (i 0).val < 256 then wq (ix2 (n0 := 256) (n1 := 256) ⟨(i 0).val, h0⟩ (i 1))
    else if h1 : (i 0).val < 512 then wk (ix2 (n0 := 256) (n1 := 256) ⟨(i 0).val - 256, by omega⟩ (i 1))
    else wv (ix2 (n0 := 256) (n1 := 256) ⟨(i 0).val - 512, by omega⟩ (i 1))
  by_cases h0 : (i 0).val < 256
  · rw [dif_pos h0]
    exact concatenate_apply_piece (t := S768x256) 0 [⟨S256x256, wq⟩, ⟨S256x256, wk⟩, ⟨S256x256, wv⟩]
      concatenates_S256x256_S256x256_S256x256_S768x256_d0 i 0 (by show 0 < 3; decide) S256x256 wq rfl rfl 0 rfl
      (ix2 (n0 := 256) (n1 := 256) ⟨(i 0).val, h0⟩ (i 1))
      (fun b hb => match b, hb with
        | ⟨0, _⟩, hb => absurd rfl hb
        | ⟨1, _⟩, _ => rfl)
      (Nat.zero_add _)
  · rw [dif_neg h0]
    by_cases h1 : (i 0).val < 512
    · rw [dif_pos h1]
      exact concatenate_apply_piece (t := S768x256) 0 [⟨S256x256, wq⟩, ⟨S256x256, wk⟩, ⟨S256x256, wv⟩]
        concatenates_S256x256_S256x256_S256x256_S768x256_d0 i 1 (by show 1 < 3; decide) S256x256 wk rfl rfl 256 rfl
        (ix2 (n0 := 256) (n1 := 256) ⟨(i 0).val - 256, by omega⟩ (i 1))
        (fun b hb => match b, hb with
          | ⟨0, _⟩, hb => absurd rfl hb
          | ⟨1, _⟩, _ => rfl)
        (by show 256 + ((i 0).val - 256) = (i 0).val; omega)
    · rw [dif_neg h1]
      exact concatenate_apply_piece (t := S768x256) 0 [⟨S256x256, wq⟩, ⟨S256x256, wk⟩, ⟨S256x256, wv⟩]
        concatenates_S256x256_S256x256_S256x256_S768x256_d0 i 2 (by show 2 < 3; decide) S256x256 wv rfl rfl 512 rfl
        (ix2 (n0 := 256) (n1 := 256) ⟨(i 0).val - 512, by omega⟩ (i 1))
        (fun b hb => match b, hb with
          | ⟨0, _⟩, hb => absurd rfl hb
          | ⟨1, _⟩, _ => rfl)
        (by show 512 + ((i 0).val - 512) = (i 0).val; omega)

/-- The stacked weight. -/
theorem host0_v0 : StableHlo.after (hostOps0 (F := Ideal)) U (Proc.devRef .tc main_v0)
    = catW (U (Proc.devRef .tc main_arg1)) (U (Proc.devRef .tc main_arg2)) (U (Proc.devRef .tc main_arg3)) := by
  after_results
  exact cast_catW _ _ _

/-- The three operands of region 1. -/
theorem host1_v6 : StableHlo.after (hostOps1 (F := Ideal)) U (Proc.devRef .tc main_v6)
    = splitHeads (sliceCols 0 (by decide) (U (Proc.devRef .tc main_v1))) := by
  after_results
  exact cast_splitHeads 0 (by decide) _ slices_S4096x768_S4096x256_0_0
theorem host1_v8 : StableHlo.after (hostOps1 (F := Ideal)) U (Proc.devRef .tc main_v8)
    = splitHeads (sliceCols 256 (by decide) (U (Proc.devRef .tc main_v1))) := by
  after_results
  exact cast_splitHeads 256 (by decide) _ slices_S4096x768_S4096x256_0_256
theorem host1_v10 : StableHlo.after (hostOps1 (F := Ideal)) U (Proc.devRef .tc main_v10)
    = splitHeads (sliceCols 512 (by decide) (U (Proc.devRef .tc main_v1))) := by
  after_results
  exact cast_splitHeads 512 (by decide) _ slices_S4096x768_S4096x256_0_512

/-- The operands of region 2 the host makes. -/
theorem host2_v13 : StableHlo.after (hostOps2 (F := Ideal)) U (Proc.devRef .tc main_v13)
    = mergeHeads (U (Proc.devRef .tc main_v11)) := by
  after_results
  exact cast_mergeHeads _
theorem host2_v14 : StableHlo.after (hostOps2 (F := Ideal)) U (Proc.devRef .tc main_v14)
    = rowOf (U (Proc.devRef .tc main_arg5)) := by
  after_results
  exact cast_rowOf _

end Cert.KernelIdeal.Val

end
-- ==== Proof.Val.Kernel.lean ====
/- The kernel program's result, read off its run: the result buffer ends at the layer `Cert.Spec.layer` of the six argument
   arrays. The run leaves every unscoped buffer at the last boundary's contents; walking those contents back through the
   three regions and the three host stretches gives region 2's feed-forward layer of the merged heads of region 1's
   attention of the split heads of the three column slices of region 0's stacked projection — and a column slice of
   the stacked projection is the projection by one weight. -/
import proofs.«123822_j11501922419472_1_alg».proof.Proof.KI.Run
import proofs.«123822_j11501922419472_1_alg».proof.Proof.Val.K0
import proofs.«123822_j11501922419472_1_alg».proof.Proof.Val.K1
import proofs.«123822_j11501922419472_1_alg».proof.Proof.Val.K2
import proofs.«123822_j11501922419472_1_alg».proof.Proof.Val.Host
import proofs.«123822_j11501922419472_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.KernelIdeal.Val

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.KernelIdeal.Fr Cert.Spec

variable (m : (ℓ : Loc nD τ sig) → Buf (Elt Ideal) ℓ) (ρ : Dev nD → PrngReg)

/-! ## Buffers no item before a boundary writes -/

theorem W1_arg0 (c : Dev nD) : W1 m ρ c (Proc.devRef .tc main_arg0) = m ((c : Thread nD τ).loc main_arg0) :=
  (W1_of m ρ c main_arg0 (by decide)).trans rfl
theorem W4_arg5 (c : Dev nD) : W4 m ρ c (Proc.devRef .tc main_arg5) = m ((c : Thread nD τ).loc main_arg5) :=
  (W4_of_ne m ρ c main_arg5 (by decide)).trans <| (W3_of m ρ c main_arg5 (by decide)).trans <|
    (W2_of_ne m ρ c main_arg5 (by decide)).trans <| (W1_of m ρ c main_arg5 (by decide)).trans rfl
theorem W5_arg4 (c : Dev nD) : W5 m ρ c (Proc.devRef .tc main_arg4) = m ((c : Thread nD τ).loc main_arg4) :=
  (W5_of m ρ c main_arg4 (by decide)).trans <| (W4_of_ne m ρ c main_arg4 (by decide)).trans <| (W3_of m ρ c main_arg4 (by decide)).trans <|
    (W2_of_ne m ρ c main_arg4 (by decide)).trans <| (W1_of m ρ c main_arg4 (by decide)).trans rfl

/-! ## The contents at each boundary, as the specification's functions -/

/-- Region 0's result: the input against the three weights stacked. -/
theorem W2_v1 (c : Dev nD) : W2 m ρ c (Proc.devRef .tc main_v1)
    = projCat (m ((c : Thread nD τ).loc main_arg0))
        (catW (m ((c : Thread nD τ).loc main_arg1)) (m ((c : Thread nD τ).loc main_arg2)) (m ((c : Thread nD τ).loc main_arg3))) := by
  refine (W2_arr m ρ c 2).trans ((final0 (V1 m ρ) c).trans ?_)
  have e0 : V1 m ρ c main_arg0 = m ((c : Thread nD τ).loc main_arg0) := W1_arg0 m ρ c
  have e1 : V1 m ρ c main_v0 = catW (m ((c : Thread nD τ).loc main_arg1)) (m ((c : Thread nD τ).loc main_arg2)) (m ((c : Thread nD τ).loc main_arg3)) :=
    host0_v0 (W0 m ρ c)
  rw [e0, e1]

/-- Region 1's three operands: the projections by each weight, split into heads. -/
theorem W3_v6 (c : Dev nD) : W3 m ρ c (Proc.devRef .tc main_v6)
    = splitHeads (proj (m ((c : Thread nD τ).loc main_arg0)) (m ((c : Thread nD τ).loc main_arg1))) := by
  refine (host1_v6 (W2 m ρ c)).trans ?_
  rw [W2_v1 m ρ c, slice_q]
theorem W3_v8 (c : Dev nD) : W3 m ρ c (Proc.devRef .tc main_v8)
    = splitHeads (proj (m ((c : Thread nD τ).loc main_arg0)) (m ((c : Thread nD τ).loc main_arg2))) := by
  refine (host1_v8 (W2 m ρ c)).trans ?_
  rw [W2_v1 m ρ c, slice_k]
theorem W3_v10 (c : Dev nD) : W3 m ρ c (Proc.devRef .tc main_v10)
    = splitHeads (proj (m ((c : Thread nD τ).loc main_arg0)) (m ((c : Thread nD τ).loc main_arg3))) := by
  refine (host1_v10 (W2 m ρ c)).trans ?_
  rw [W2_v1 m ρ c, slice_v]

/-- Region 1's result: the attention of those. -/
theorem W4_v11 (c : Dev nD) : W4 m ρ c (Proc.devRef .tc main_v11)
    = attn (splitHeads (proj (m ((c : Thread nD τ).loc main_arg0)) (m ((c : Thread nD τ).loc main_arg1))))
        (splitHeads (proj (m ((c : Thread nD τ).loc main_arg0)) (m ((c : Thread nD τ).loc main_arg2))))
        (splitHeads (proj (m ((c : Thread nD τ).loc main_arg0)) (m ((c : Thread nD τ).loc main_arg3)))) := by
  refine (W4_arr m ρ c 3).trans ((final1 (V3 m ρ) c).trans ?_)
  have e6 := W3_v6 m ρ c
  have e8 := W3_v8 m ρ c
  have e10 := W3_v10 m ρ c
  show attn (W3 m ρ c (Proc.devRef .tc main_v6)) (W3 m ρ c (Proc.devRef .tc main_v8)) (W3 m ρ c (Proc.devRef .tc main_v10)) = _
  rw [e6, e8, e10]

/-- THE KERNEL'S VALUE: the result buffer after the run is the layer of the argument arrays. -/
theorem kernel_value (c : Dev nD) : W6 m ρ c (Proc.devRef .tc main_v15)
    = layer (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  refine (W6_main_v15 m ρ c).trans ((final2 (V5 m ρ) c).trans ?_)
  have e13 : W5 m ρ c (Proc.devRef .tc main_v13) = mergeHeads (W4 m ρ c (Proc.devRef .tc main_v11)) := host2_v13 (W4 m ρ c)
  have e14 : W5 m ρ c (Proc.devRef .tc main_v14) = rowOf (W4 m ρ c (Proc.devRef .tc main_arg5)) := host2_v14 (W4 m ρ c)
  show ffnRow (W5 m ρ c (Proc.devRef .tc main_v13)) (W5 m ρ c (Proc.devRef .tc main_arg4)) (W5 m ρ c (Proc.devRef .tc main_v14)) = _
  rw [e13, e14, W5_arg4 m ρ c, W4_arg5 m ρ c, W4_v11 m ρ c, ffnRow_rowOf]
  rfl

/-- The kernel's run with the result named: the first result is the first argument, the second the layer. -/
theorem kernel_run : θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v15)
          = layer (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W6_main_arg0 m ρ c),
     (h c _ (mem_uc main_v15 (by decide))).trans (kernel_value m ρ c),
     (h c _ (mem_uc main_arg0 (by decide))).trans (W6_main_arg0 m ρ c),
     (h c _ (mem_uc main_arg1 (by decide))).trans (W6_main_arg1 m ρ c),
     (h c _ (mem_uc main_arg2 (by decide))).trans (W6_main_arg2 m ρ c),
     (h c _ (mem_uc main_arg3 (by decide))).trans (W6_main_arg3 m ρ c),
     (h c _ (mem_uc main_arg4 (by decide))).trans (W6_main_arg4 m ρ c),
     (h c _ (mem_uc main_arg5 (by decide))).trans (W6_main_arg5 m ρ c)⟩) (run_all m ρ)

end Cert.KernelIdeal.Val

end
-- ==== Proof.Val.Ref.lean ====
/- The reference program's result, read back through its run, is the layer `Cert.Spec.layer` of the argument arrays. -/
import proofs.«123822_j11501922419472_1_alg».proof.Proof.Gen.ReferenceIdeal.Run
import proofs.«123822_j11501922419472_1_alg».proof.Proof.Gen.ReferenceIdeal.Read
import proofs.«123822_j11501922419472_1_alg».proof.Proof.Val.Spec
import Idealize.ShloMosaic.PureOps.Ideal.Laws
import Idealize.ShloMosaic.Lib.ValueIdx
import Idealize.ShloMosaic.Lib.ValueLayout
import Idealize.ShloMosaic.Lib.Pipeline.Value

set_option maxRecDepth 16384

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Value Cert.ReferenceIdeal.Read
open Cert.Spec

/-! ## The projections, split into heads

Entry (h, n, d) of a projected and re-arranged operand is entry (n, h·32 + d) of x·wᵀ: the reshape reads the flat
position (n·8 + h)·32 + d of a 4096×256 array, whose row is n and whose column is h·32 + d; the transposed weight
read at (k, j) is the weight at (j, k). -/

/-- The flat position of (n, h, d) in a 4096×8×32 array has row n in a 4096×256 array … -/
theorem row_of_flat (n h d : Nat) (hh : h < 8) (hd : d < 32) : ((n * 8 + h) * 32 + d) / 256 = n := by omega
/-- … and column h·32 + d. -/
theorem col_of_flat (n h d : Nat) (hh : h < 8) (hd : d < 32) : ((n * 8 + h) * 32 + d) % 256 = h * 32 + d := by omega

/-- The first projection, split into heads. -/
theorem q_stage (x0 : T2 4096 256) (x1 : T2 256 256) :
    val_main_v3 (F := Ideal) x0 x1 = splitHeads (proj x0 x1) := by
  funext i
  have h0 : (i 0).val < 8 := (i 0).isLt
  have h2 : (i 2).val < 32 := (i 2).isLt
  rw [val_main_v3_apply, val_main_v2_apply, val_main_v1_apply]
  show _ = ∑ k : Fin 256, x0 (ix2 (n0 := 4096) (n1 := 256) (i 1) k)
    * x1 (ix2 (n0 := 256) (n1 := 256) ⟨(i 0).val * 32 + (i 2).val, by omega⟩ k)
  refine Finset.sum_congr rfl fun k _ => ?_
  rw [val_main_v0_apply]
  have el : lidx_main_v1 (idx_main_v2 (idx_main_v3 i)) k = ix2 (n0 := 4096) (n1 := 256) (i 1) k :=
    funext fun a => Fin.ext (by
      match a with
      | ⟨0, _⟩ => exact row_of_flat _ _ _ h0 h2
      | ⟨1, _⟩ => rfl)
  have er : idx_main_v0 (ridx_main_v1 (idx_main_v2 (idx_main_v3 i)) k)
      = ix2 (n0 := 256) (n1 := 256) ⟨(i 0).val * 32 + (i 2).val, by omega⟩ k :=
    funext fun a => Fin.ext (by
      match a with
      | ⟨0, _⟩ => exact col_of_flat _ _ _ h0 h2
      | ⟨1, _⟩ => rfl)
  rw [el, er]

/-- The second projection, split into heads. -/
theorem k_stage (x0 : T2 4096 256) (x2 : T2 256 256) :
    val_main_v7 (F := Ideal) x0 x2 = splitHeads (proj x0 x2) := by
  funext i
  have h0 : (i 0).val < 8 := (i 0).isLt
  have h2 : (i 2).val < 32 := (i 2).isLt
  rw [val_main_v7_apply, val_main_v6_apply, val_main_v5_apply]
  show _ = ∑ k : Fin 256, x0 (ix2 (n0 := 4096) (n1 := 256) (i 1) k)
    * x2 (ix2 (n0 := 256) (n1 := 256) ⟨(i 0).val * 32 + (i 2).val, by omega⟩ k)
  refine Finset.sum_congr rfl fun k _ => ?_
  rw [val_main_v4_apply]
  have el : lidx_main_v5 (idx_main_v6 (idx_main_v7 i)) k = ix2 (n0 := 4096) (n1 := 256) (i 1) k :=
    funext fun a => Fin.ext (by
      match a with
      | ⟨0, _⟩ => exact row_of_flat _ _ _ h0 h2
      | ⟨1, _⟩ => rfl)
  have er : idx_main_v4 (ridx_main_v5 (idx_main_v6 (idx_main_v7 i)) k)
      = ix2 (n0 := 256) (n1 := 256) ⟨(i 0).val * 32 + (i 2).val, by omega⟩ k :=
    funext fun a => Fin.ext (by
      match a with
      | ⟨0, _⟩ => exact col_of_flat _ _ _ h0 h2
      | ⟨1, _⟩ => rfl)
  rw [el, er]

/-- The third projection, split into heads. -/
theorem v_stage (x0 : T2 4096 256) (x3 : T2 256 256) :
    val_main_v11 (F := Ideal) x0 x3 = splitHeads (proj x0 x3) := by
  funext i
  have h0 : (i 0).val < 8 := (i 0).isLt
  have h2 : (i 2).val < 32 := (i 2).isLt
  rw [val_main_v11_apply, val_main_v10_apply, val_main_v9_apply]
  show _ = ∑ k : Fin 256, x0 (ix2 (n0 := 4096) (n1 := 256) (i 1) k)
    * x3 (ix2 (n0 := 256) (n1 := 256) ⟨(i 0).val * 32 + (i 2).val, by omega⟩ k)
  refine Finset.sum_congr rfl fun k _ => ?_
  rw [val_main_v8_apply]
  have el : lidx_main_v9 (idx_main_v10 (idx_main_v11 i)) k = ix2 (n0 := 4096) (n1 := 256) (i 1) k :=
    funext fun a => Fin.ext (by
      match a with
      | ⟨0, _⟩ => exact row_of_flat _ _ _ h0 h2
      | ⟨1, _⟩ => rfl)
  have er : idx_main_v8 (ridx_main_v9 (idx_main_v10 (idx_main_v11 i)) k)
      = ix2 (n0 := 256) (n1 := 256) ⟨(i 0).val * 32 + (i 2).val, by omega⟩ k :=
    funext fun a => Fin.ext (by
      match a with
      | ⟨0, _⟩ => exact col_of_flat _ _ _ h0 h2
      | ⟨1, _⟩ => rfl)
  rw [el, er]

/-! ## The attention

Per head h and row n the scores against row m are the sum over the head width of q[h,n,·]·k[h,m,·]; their tanh weighs
v[h,m,d], summed over all rows m. -/

/-- The two batched products with the tanh between them are the tanh-gated attention of the three split operands. -/
theorem attn_stage (x0 : T2 4096 256) (x1 x2 x3 : T2 256 256) :
    val_main_v14 (F := Ideal) x0 x1 x2 x3
      = attn (val_main_v3 (F := Ideal) x0 x1) (val_main_v7 (F := Ideal) x0 x2) (val_main_v11 (F := Ideal) x0 x3) := by
  funext i
  rw [val_main_v14_apply]
  show _ = ∑ m : Fin 4096, Ideal.tanh (∑ d : Fin 32,
      val_main_v3 (F := Ideal) x0 x1 (ix3 (n0 := 8) (n1 := 4096) (n2 := 32) (i 0) (i 1) d)
        * val_main_v7 (F := Ideal) x0 x2 (ix3 (n0 := 8) (n1 := 4096) (n2 := 32) (i 0) m d))
    * val_main_v11 (F := Ideal) x0 x3 (ix3 (n0 := 8) (n1 := 4096) (n2 := 32) (i 0) m (i 2))
  refine Finset.sum_congr rfl fun m _ => ?_
  rw [val_main_v13_apply, val_main_v12_apply, Ideal.hostUnary_tanh_def]
  have eq : ∀ d : Fin 32, lidx_main_v12 (lidx_main_v14 i m) d = ix3 (n0 := 8) (n1 := 4096) (n2 := 32) (i 0) (i 1) d :=
    fun d => funext fun a => Fin.ext (by
      match a with
      | ⟨0, _⟩ => rfl
      | ⟨1, _⟩ => rfl
      | ⟨2, _⟩ => rfl)
  have ek : ∀ d : Fin 32, ridx_main_v12 (lidx_main_v14 i m) d = ix3 (n0 := 8) (n1 := 4096) (n2 := 32) (i 0) m d :=
    fun d => funext fun a => Fin.ext (by
      match a with
      | ⟨0, _⟩ => rfl
      | ⟨1, _⟩ => rfl
      | ⟨2, _⟩ => rfl)
  have ev : ridx_main_v14 i m = ix3 (n0 := 8) (n1 := 4096) (n2 := 32) (i 0) m (i 2) :=
    funext fun a => Fin.ext (by
      match a with
      | ⟨0, _⟩ => rfl
      | ⟨1, _⟩ => rfl
      | ⟨2, _⟩ => rfl)
  rw [ev]
  refine congrArg (· * _) (congrArg Ideal.tanh (Finset.sum_congr rfl fun d _ => ?_))
  rw [eq d, ek d]

/-! ## The heads merged back

Entry (n, c) of the merged array reads the flat position n·256 + c of a 4096×8×32 array: head c / 32, width c % 32. -/

/-- The transpose and reshape after the attention merge the heads. -/
theorem merge_stage (x0 : T2 4096 256) (x1 x2 x3 : T2 256 256) :
    val_main_v16 (F := Ideal) x0 x1 x2 x3 = mergeHeads (val_main_v14 (F := Ideal) x0 x1 x2 x3) := by
  funext i
  have h0 : (i 0).val < 4096 := (i 0).isLt
  have h1 : (i 1).val < 256 := (i 1).isLt
  rw [val_main_v16_apply, val_main_v15_apply]
  refine congrArg (val_main_v14 (F := Ideal) x0 x1 x2 x3) (funext fun a => Fin.ext ?_)
  match a with
  | ⟨0, _⟩ => show ((i 0).val * 256 + (i 1).val) / 32 % 8 = (i 1).val / 32; omega
  | ⟨1, _⟩ => show ((i 0).val * 256 + (i 1).val) / 256 = (i 0).val; omega
  | ⟨2, _⟩ => show ((i 0).val * 256 + (i 1).val) % 32 = (i 1).val % 32; omega

/-! ## The feed-forward layer

The product against the transposed last weight, the bias broadcast along the rows, and the maximum with a broadcast
zero. -/

/-- The last product, the bias and the maximum with zero are the feed-forward layer of the merged attention. -/
theorem ffn_stage (x0 : T2 4096 256) (x1 x2 x3 x4 : T2 256 256) (x5 : T1 256) :
    val_main_v22 (F := Ideal) x0 x1 x2 x3 x4 x5 = ffn (val_main_v16 (F := Ideal) x0 x1 x2 x3) x4 x5 := by
  funext i
  rw [val_main_v22_apply, val_main_v21_apply, val_main_v18_apply, val_main_v20_apply, val_main_v19_apply,
    val_main_call0_v0_apply, val_main_call0_cst_apply, Ideal.maximumf_def, Ideal.addf_def, Ideal.ofBits_def,
    Ideal.ofBits_zero_f32]
  show _ = max ((∑ k : Fin 256, val_main_v16 (F := Ideal) x0 x1 x2 x3 (ix2 (n0 := 4096) (n1 := 256) (i 0) k)
      * x4 (ix2 (n0 := 256) (n1 := 256) (i 1) k)) + x5 (ix1 (n := 256) (i 1))) 0
  have eb : idx_main_v19 (idx_main_v20 i) = ix1 (n := 256) (i 1) :=
    funext fun a => Fin.ext (by
      match a with
      | ⟨0, _⟩ => rfl)
  rw [eb]
  refine congrArg (fun s => max (s + x5 (ix1 (n := 256) (i 1))) 0) (Finset.sum_congr rfl fun k _ => ?_)
  rw [val_main_v17_apply]
  have el : lidx_main_v18 i k = ix2 (n0 := 4096) (n1 := 256) (i 0) k :=
    funext fun a => Fin.ext (by
      match a with
      | ⟨0, _⟩ => rfl
      | ⟨1, _⟩ => rfl)
  have er : idx_main_v17 (ridx_main_v18 i k) = ix2 (n0 := 256) (n1 := 256) (i 1) k :=
    funext fun a => Fin.ext (by
      match a with
      | ⟨0, _⟩ => rfl
      | ⟨1, _⟩ => rfl)
  rw [el, er]

/-! ## The whole layer -/

/-- The last stage of the program is the layer of the six arguments. -/
theorem result_eq (x0 : T2 4096 256) (x1 x2 x3 x4 : T2 256 256) (x5 : T1 256) :
    val_main_v22 (F := Ideal) x0 x1 x2 x3 x4 x5 = layer x0 x1 x2 x3 x4 x5 := by
  unfold layer
  rw [ffn_stage, merge_stage, attn_stage, q_stage, k_stage, v_stage]

/-- Every execution of the reference ends with the result at the layer of the arguments, the arguments unchanged:
    the composed term the run leaves in the result is the last stage. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_v22) = Cert.Spec.layer (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1,
      ((h c).2.1.trans (val_main_v22_eq (F := Ideal) _ _ _ _ _ _)).trans (result_eq _ _ _ _ _ _), (h c).2.2⟩)
    (Value.run (F := Ideal) m ρ)

end Cert.ReferenceIdeal.RefValue

end
-- ==== Proof.lean ====
/- The proof of `Cert.Claim`: the three frames, the (empty) idealization ledger, and the equivalence of the idealized
   kernel and the idealized reference over the extended reals.

   The program is one transformer-style layer on a 4096×256 input x: q = x·Wqᵀ, k = x·Wkᵀ, v = x·Wvᵀ, split into 8 heads
   of width 32; per head the un-normalised tanh attention Σ_m tanh(q_n·k_m) v_m over all 4096 rows; the heads merged;
   then max(att·Wfᵀ + b, 0). The kernel runs three pipelined regions — one product against the three weights stacked,
   the attention accumulated over 16 key tiles in a scratch buffer, the feed-forward layer — with host slices,
   reshapes and transposes between them; the reference is the same formulas on the host. At the ideal values every
   format change is the identity and sums may be regrouped freely, so both results are `Cert.Spec.layer` of the
   arguments (Proof/Val/Kernel.lean, Proof/Val/Ref.lean). Both frames of the kernel come from one run theorem that names
   every buffer's final contents (Proof/KI/Run.lean and its word-level twin Proof/K/Run.lean). -/
import proofs.«123822_j11501922419472_1_alg».proof.Defs
import proofs.«123822_j11501922419472_1_alg».proof.Proof.Gen.Kernel
import proofs.«123822_j11501922419472_1_alg».proof.Proof.Gen.KernelIdeal
import proofs.«123822_j11501922419472_1_alg».proof.Proof.Gen.ReferenceIdeal
import proofs.«123822_j11501922419472_1_alg».proof.Proof.Gen.Pre_finite_inputs
import proofs.«123822_j11501922419472_1_alg».proof.Proof.K.Run
import proofs.«123822_j11501922419472_1_alg».proof.Proof.KI.Run
import proofs.«123822_j11501922419472_1_alg».proof.Proof.Val.Kernel
import proofs.«123822_j11501922419472_1_alg».proof.Proof.Val.Ref
import Idealize.ShloMosaic.Adequacy
import Idealize.ShloMosaic.Init

noncomputable section

namespace Cert.Proof

open Idealize.ShloMosaic Idealize.ShloMosaic.TcCoe Idealize.SL.Sem

theorem frame_k : @Cert.frame_Kernel Cert.Kernel.Gen.facts Cert.Pre_finite_inputs.Gen.facts :=
  fun m ρ _ => Cert.Kernel.Fr.frame m ρ

theorem frame_ki : @Cert.frame_KernelIdeal Cert.KernelIdeal.Gen.facts Cert.Pre_finite_inputs.Gen.facts :=
  fun m ρ _ => Cert.KernelIdeal.Fr.frame m ρ

/-- The reference has no kernel: its frame is its run with the results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both programs end with the first argument and the layer of the arguments; the memories agree on the arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, _, Cert.KernelIdeal.Val.kernel_run m ρ, ?_⟩
  refine (θ_run Cert.ReferenceIdeal.defs _ _).mono (fun _ h c => ⟨(h c).1.trans ?_, (h c).2.1.trans ?_, (h c).2.2⟩)
    (Cert.ReferenceIdeal.RefValue.ref_run m' ρ')
  · exact (hagree c).1
  · rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
